-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_dx" .f32 0x42631C72#32 ((134217728 / 2363913 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S500000 : Shape := ⟨1, ![500000]⟩
abbrev S10x16x512 : Shape := ⟨3, ![10, 16, 512]⟩
abbrev S4x4 : Shape := ⟨2, ![4, 4]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S10x16x512 : S_.BroadcastsInDim S10x16x512 (![] : Fin 0 → Fin S10x16x512.rank)
  reducesTo_S10x16x512_S_d0_1_2 : S10x16x512.ReducesTo [0, 1, 2] S_
  bcast_S_S4x4 : S_.BroadcastsInDim S4x4 (![] : Fin 0 → Fin S4x4.rank)
  reducesTo_S4x4_S_d0_1 : S4x4.ReducesTo [0, 1] S_
  bcast_S_S500000 : S_.BroadcastsInDim S500000 (![] : Fin 0 → Fin S500000.rank)
  reducesTo_S500000_S_d0 : S500000.ReducesTo [0] S_

variable [Facts]

def fn_part1 {F : FTy → Type} [FloatOps F] (main_arg1 : IVec S2000000 32) (main_arg2 : IVec S500000 32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_c_6 : IVec S_ 32 := constantI S_ 32 0#32
  let main_v19 : IVec S2000000 32 := broadcastInDim S2000000 ![] bcast_S_S2000000 main_c_6
  let main_v20 : IVec S2000000 1 := cmpi .sge main_arg1 main_v19
  let main_c_7 : IVec S_ 1 := constantI S_ 1 1#1
  let main_v21 : IVec S_ 1 := (fun x v => Host.reduce IntOp.andi x v reducesTo_S2000000_S_d0 h_S_) main_v20 main_c_7
  let main_v22 : IVec S_ 1 := andi main_v18 main_v21
  let main_c_8 : IVec S_ 32 := constantI S_ 32 0#32
  let main_v23 : IVec S500000 32 := broadcastInDim S500000 ![] bcast_S_S500000 main_c_8
  let main_v24 : IVec S500000 1 := cmpi .sge main_arg2 main_v23
  let main_c_9 : IVec S_ 1 := constantI S_ 1 1#1
  let main_v25 : IVec S_ 1 := (fun x v => Host.reduce IntOp.andi x v reducesTo_S500000_S_d0 h_S_) main_v24 main_c_9
  let main_v26 : IVec S_ 1 := andi main_v22 main_v25
  let main_c_10 : IVec S_ 32 := constantI S_ 32 4#32
  let main_v27 : IVec S500000 32 := broadcastInDim S500000 ![] bcast_S_S500000 main_c_10
  let main_v28 : IVec S500000 1 := cmpi .slt main_arg2 main_v27
  let main_c_11 : IVec S_ 1 := constantI S_ 1 1#1
  let main_v29 : IVec S_ 1 := (fun x v => Host.reduce IntOp.andi x v reducesTo_S500000_S_d0 h_S_) main_v28 main_c_11
  let main_v30 : IVec S_ 1 := andi main_v26 main_v29
  main_v30

def fn {F : FTy → Type} [FloatOps F] (main_arg0 : FVec F S2000000 .f32) (main_arg1 : IVec S2000000 32) (main_arg2 : IVec S500000 32) (main_arg3 : FVec F S10x16x512 .f32) (main_arg4 : FVec F S10x16x512 .f32) (main_arg5 : FVec F S4x4 .f32) : IVec S_ 1 :=
  let main_v0 : FVec F S2000000 .f32 := Host.absf main_arg0
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S10x16x512 .f32 := Host.absf main_arg3
  let main_cst_0 : FVec F S_ .f32 := constant S_ .f32 0x7F800000#32
  let main_v5 : FVec F S10x16x512 .f32 := broadcastInDim S10x16x512 ![] bcast_S_S10x16x512 main_cst_0
  let main_v6 : IVec S10x16x512 1 := cmpf .olt main_v4 main_v5
  let main_c_1 : IVec S_ 1 := constantI S_ 1 1#1
  let main_v7 : IVec S_ 1 := (fun x v => Host.reduce IntOp.andi x v reducesTo_S10x16x512_S_d0_1_2 h_S_) main_v6 main_c_1
  let main_v8 : IVec S_ 1 := andi main_v3 main_v7
  let main_v9 : FVec F S10x16x512 .f32 := Host.absf main_arg4
  let main_cst_2 : FVec F S_ .f32 := constant S_ .f32 0x7F800000#32
  let main_v10 : FVec F S10x16x512 .f32 := broadcastInDim S10x16x512 ![] bcast_S_S10x16x512 main_cst_2
  let main_v11 : IVec S10x16x512 1 := cmpf .olt main_v9 main_v10
  let main_c_3 : IVec S_ 1 := constantI S_ 1 1#1
  let main_v12 : IVec S_ 1 := (fun x v => Host.reduce IntOp.andi x v reducesTo_S10x16x512_S_d0_1_2 h_S_) main_v11 main_c_3
  let main_v13 : IVec S_ 1 := andi main_v8 main_v12
  let main_v14 : FVec F S4x4 .f32 := Host.absf main_arg5
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg1 main_arg2 main_v13 main_v16
-- ==== Kernel.lean ====
abbrev S2000000 : Shape := ⟨1, ![2000000]⟩
abbrev S500000 : Shape := ⟨1, ![500000]⟩
abbrev S10x16x512 : Shape := ⟨3, ![10, 16, 512]⟩
abbrev S4x4 : Shape := ⟨2, ![4, 4]⟩
abbrev S_ : Shape := ⟨0, ![]⟩
abbrev S2000896 : Shape := ⟨1, ![2000896]⟩
abbrev S507904 : Shape := ⟨1, ![507904]⟩
abbrev S512x10x16 : Shape := ⟨3, ![512, 10, 16]⟩
abbrev S512x160 : Shape := ⟨2, ![512, 160]⟩
abbrev S512x320 : Shape := ⟨2, ![512, 320]⟩
abbrev S512x640 : Shape := ⟨2, ![512, 640]⟩
abbrev S2000896x16 : Shape := ⟨2, ![2000896, 16]⟩
abbrev S2048 : Shape := ⟨1, ![2048]⟩
abbrev S2048x16 : Shape := ⟨2, ![2048, 16]⟩
abbrev S2048x1 : Shape := ⟨2, ![2048, 1]⟩
abbrev S2048x512 : Shape := ⟨2, ![2048, 512]⟩
abbrev S2048x640 : Shape := ⟨2, ![2048, 640]⟩
abbrev S2048x320 : Shape := ⟨2, ![2048, 320]⟩
abbrev S2000000x16 : Shape := ⟨2, ![2000000, 16]⟩
abbrev S507904x4 : Shape := ⟨2, ![507904, 4]⟩
abbrev S8192 : Shape := ⟨1, ![8192]⟩
abbrev S8192x4 : Shape := ⟨2, ![8192, 4]⟩
abbrev S8192x1 : Shape := ⟨2, ![8192, 1]⟩
abbrev S1x4 : Shape := ⟨2, ![1, 4]⟩
abbrev S4 : Shape := ⟨1, ![4]⟩
abbrev S500000x4 : Shape := ⟨2, ![500000, 4]⟩

abbrev nBuf : Space → Nat
  | .hbm => 31
  | .vmem => 14
  | .smem => 0
  | _ => 0

abbrev bufTy : (tb : Table) → Fin (tcTables nBuf tb) → BufTy
  | .hbm, ⟨0, _⟩ => ⟨S2000000, .f32⟩
  | .hbm, ⟨1, _⟩ => ⟨S2000000, .i32⟩
  | .hbm, ⟨2, _⟩ => ⟨S500000, .i32⟩
  | .hbm, ⟨3, _⟩ => ⟨S10x16x512, .f32⟩
  | .hbm, ⟨4, _⟩ => ⟨S10x16x512, .f32⟩
  | .hbm, ⟨5, _⟩ => ⟨S4x4, .f32⟩
  | .hbm, ⟨6, _⟩ => ⟨S_, .f32⟩
  | .hbm, ⟨7, _⟩ => ⟨S_, .f32⟩
  | .hbm, ⟨8, _⟩ => ⟨S2000896, .f32⟩
  | .hbm, ⟨9, _⟩ => ⟨S_, .i32⟩
  | .hbm, ⟨10, _⟩ => ⟨S_, .i32⟩
  | .hbm, ⟨11, _⟩ => ⟨S2000896, .i32⟩
  | .hbm, ⟨12, _⟩ => ⟨S_, .i32⟩
  | .hbm, ⟨13, _⟩ => ⟨S_, .i32⟩
  | .hbm, ⟨14, _⟩ => ⟨S507904, .i32⟩
  | .hbm, ⟨15, _⟩ => ⟨S512x10x16, .f32⟩
  | .hbm, ⟨16, _⟩ => ⟨S512x160, .f32⟩
  | .hbm, ⟨17, _⟩ => ⟨S512x10x16, .f32⟩
  | .hbm, ⟨18, _⟩ => ⟨S512x160, .f32⟩
  | .hbm, ⟨19, _⟩ => ⟨S512x320, .f32⟩
  | .hbm, ⟨20, _⟩ => ⟨S512x320, .bf16⟩
  | .hbm, ⟨21, _⟩ => ⟨S512x320, .f32⟩
  | .hbm, ⟨22, _⟩ => ⟨S512x320, .f32⟩
  | .hbm, ⟨23, _⟩ => ⟨S512x320, .bf16⟩
  | .hbm, ⟨24, _⟩ => ⟨S512x640, .bf16⟩
  | .hbm, ⟨25, _⟩ => ⟨S2000896x16, .f32⟩
  | .hbm, ⟨26, _⟩ => ⟨S2000896x16, .f32⟩
  | .hbm, ⟨27, _⟩ => ⟨S2000000x16, .f32⟩
  | .hbm, ⟨28, _⟩ => ⟨S2000000x16, .f32⟩
  | .hbm, ⟨29, _⟩ => ⟨S507904x4, .f32⟩
  | .hbm, ⟨30, _⟩ => ⟨S500000x4, .f32⟩
  | .local _ .vmem, ⟨0, _⟩ => ⟨S2048, .f32⟩
  | .local _ .vmem, ⟨1, _⟩ => ⟨S2048, .f32⟩
  | .local _ .vmem, ⟨2, _⟩ => ⟨S2048, .i32⟩
  | .local _ .vmem, ⟨3, _⟩ => ⟨S2048, .i32⟩
  | .local _ .vmem, ⟨4, _⟩ => ⟨S512x640, .bf16⟩
  | .local _ .vmem, ⟨5, _⟩ => ⟨S2048x16, .f32⟩
  | .local _ .vmem, ⟨6, _⟩ => ⟨S2048x16, .f32⟩
  | .local _ .vmem, ⟨7, _⟩ => ⟨S2048x16, .f32⟩
  | .local _ .vmem, ⟨8, _⟩ => ⟨S2048x16, .f32⟩
  | .local _ .vmem, ⟨9, _⟩ => ⟨S8192, .i32⟩
  | .local _ .vmem, ⟨10, _⟩ => ⟨S8192, .i32⟩
  | .local _ .vmem, ⟨11, _⟩ => ⟨S4x4, .f32⟩
  | .local _ .vmem, ⟨12, _⟩ => ⟨S8192x4, .f32⟩
  | .local _ .vmem, ⟨13, _⟩ => ⟨S8192x4, .f32⟩
  | _, _ => ⟨S2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_call0_v0 : Ref sig .tc := ⟨.hbm, 7, rfl⟩
abbrev main_v0 : Ref sig .tc := ⟨.hbm, 8, rfl⟩
abbrev main_c : Ref sig .tc := ⟨.hbm, 9, rfl⟩
abbrev main_call1_v0 : Ref sig .tc := ⟨.hbm, 10, rfl⟩
abbrev main_v1 : Ref sig .tc := ⟨.hbm, 11, rfl⟩
abbrev main_c_0 : Ref sig .tc := ⟨.hbm, 12, rfl⟩
abbrev main_call2_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![977], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![62], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  pads_S2000000_S2000896_08960 : S2000000.Pads (![0] : Fin 1 → Nat) ![896] ![0] S2000896
  h_S_ : 0 < S_.numel
  pads_S500000_S507904_079040 : S500000.Pads (![0] : Fin 1 → Nat) ![7904] ![0] S507904
  transposes_S10x16x512_S512x10x16_2_0_1 : S10x16x512.Transposes [2, 0, 1] S512x10x16
  shapeCasts_S512x10x16_S512x160 : S512x10x16.ShapeCasts S512x160
  concatenates_S512x160_S512x160_S512x320_d1 : Shape.Concatenates [S512x160, S512x160] S512x320 1
  bitsLt_bf16_f32 : FTy.bits .bf16 < FTy.bits .f32
  concatenates_S512x320_S512x320_S512x640_d1 : Shape.Concatenates [S512x320, S512x320] S512x640 1
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  iota_S2048x512_d1_w32 : S2048x512.Iotas .tc 32 [1]
  broadcasts_S2048x1_S2048x512 : S2048x1.Broadcasts S2048x512
  natLt_1_32 : 1 < 32
  inb_S512x640_S512x640_0_0 : ∀ a, (![0, 0] : Fin 2 → Nat) a + S512x640.size a ≤ S512x640.size a
  h_S512x640 : 0 < S512x640.numel
  shapeCasts_S512x640_S512x640 : S512x640.ShapeCasts S512x640
  slices_S2048x640_o0_0_S2048x320 : S2048x640.Slices ![0, 0] S2048x320
  slices_S2048x640_o0_320_S2048x320 : S2048x640.Slices ![0, 320] S2048x320
  broadcasts_S2048x1_S2048x320 : S2048x1.Broadcasts S2048x320
  slices_S2048x320_o0_0_S2048x16 : S2048x320.Slices ![0, 0] S2048x16
  broadcasts_S2048x1_S2048x16 : S2048x1.Broadcasts S2048x16
  slices_S2048x320_o0_160_S2048x16 : S2048x320.Slices ![0, 160] S2048x16
  slices_S2048x320_o0_16_S2048x16 : S2048x320.Slices ![0, 16] S2048x16
  slices_S2048x320_o0_176_S2048x16 : S2048x320.Slices ![0, 176] S2048x16
  slices_S2048x320_o0_32_S2048x16 : S2048x320.Slices ![0, 32] S2048x16
  slices_S2048x320_o0_192_S2048x16 : S2048x320.Slices ![0, 192] S2048x16
  slices_S2048x320_o0_48_S2048x16 : S2048x320.Slices ![0, 48] S2048x16
  slices_S2048x320_o0_208_S2048x16 : S2048x320.Slices ![0, 208] S2048x16
  slices_S2048x320_o0_64_S2048x16 : S2048x320.Slices ![0, 64] S2048x16
  slices_S2048x320_o0_224_S2048x16 : S2048x320.Slices ![0, 224] S2048x16
  slices_S2048x320_o0_80_S2048x16 : S2048x320.Slices ![0, 80] S2048x16
  slices_S2048x320_o0_240_S2048x16 : S2048x320.Slices ![0, 240] S2048x16
  slices_S2048x320_o0_96_S2048x16 : S2048x320.Slices ![0, 96] S2048x16
  slices_S2048x320_o0_256_S2048x16 : S2048x320.Slices ![0, 256] S2048x16
  slices_S2048x320_o0_112_S2048x16 : S2048x320.Slices ![0, 112] S2048x16
  slices_S2048x320_o0_272_S2048x16 : S2048x320.Slices ![0, 272] S2048x16
  slices_S2048x320_o0_128_S2048x16 : S2048x320.Slices ![0, 128] S2048x16
  slices_S2048x320_o0_288_S2048x16 : S2048x320.Slices ![0, 288] S2048x16
  slices_S2048x320_o0_144_S2048x16 : S2048x320.Slices ![0, 144] S2048x16
  slices_S2048x320_o0_304_S2048x16 : S2048x320.Slices ![0, 304] S2048x16
  inb_S2048x16_S2048x16_0_0 : ∀ a, (![0, 0] : Fin 2 → Nat) a + S2048x16.size a ≤ S2048x16.size a
  h_S2048x16 : 0 < S2048x16.numel
  slices_S2000896x16_S2000000x16_0_0 : S2000896x16.Slices ![0, 0] S2000000x16
  inb_S8192_S8192_0 : ∀ a, (![0] : Fin 1 → Nat) a + S8192.size a ≤ S8192.size a
  h_S8192 : 0 < S8192.numel
  shapeCasts_S8192_S8192 : S8192.ShapeCasts S8192
  inb_S4x4_S4x4_0_0 : ∀ a, (![0, 0] : Fin 2 → Nat) a + S4x4.size a ≤ S4x4.size a
  h_S4x4 : 0 < S4x4.numel
  shapeCasts_S8192_S8192x1 : S8192.ShapeCasts S8192x1
  slices_S4x4_o0_0_S1x4 : S4x4.Slices ![0, 0] S1x4
  shapeCasts_S1x4_S4 : S1x4.ShapeCasts S4
  shapeCasts_S4_S1x4 : S4.ShapeCasts S1x4
  broadcasts_S8192x1_S8192x4 : S8192x1.Broadcasts S8192x4
  broadcasts_S1x4_S8192x4 : S1x4.Broadcasts S8192x4
  slices_S4x4_o1_0_S1x4 : S4x4.Slices ![1, 0] S1x4
  slices_S4x4_o2_0_S1x4 : S4x4.Slices ![2, 0] S1x4
  slices_S4x4_o3_0_S1x4 : S4x4.Slices ![3, 0] S1x4
  inb_S8192x4_S8192x4_0_0 : ∀ a, (![0, 0] : Fin 2 → Nat) a + S8192x4.size a ≤ S8192x4.size a
  h_S8192x4 : 0 < S8192x4.numel
  slices_S507904x4_S500000x4_0_0 : S507904x4.Slices ![0, 0] S500000x4
  dot_S2048x512_S512x640_S2048x640_1_0_0_1_n_n_wf : DotDims.WF S2048x512 S512x640 S2048x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S2000896.size a
  hwx0_0 : ∀ i : grid0.Coords, EltTy.bits .f32 = 32 ∨ (Rect.block (s := S2000896) S2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2000896.size a
  hwx0_1 : ∀ i : grid0.Coords, EltTy.bits .i32 = 32 ∨ (Rect.block (s := S2000896) S2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .bf16 = 32 ∨ (Rect.block (s := S512x640) S512x640.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S2000896x16.size a
  hwx0_3 : ∀ i : grid0.Coords, EltTy.bits .f32 = 32 ∨ (Rect.block (s := S2000896x16) S2048x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x16.size a ≤ S2000896x16.size a
  hwx0_4 : ∀ i : grid0.Coords, EltTy.bits .f32 = 32 ∨ (Rect.block (s := S2000896x16) S2048x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S507904.size a
  hwx1_0 : ∀ i : grid1.Coords, EltTy.bits .i32 = 32 ∨ (Rect.block (s := S507904) S8192.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x4.size a ≤ S4x4.size a
  hwx1_1 : ∀ i : grid1.Coords, EltTy.bits .f32 = 32 ∨ (Rect.block (s := S4x4) S4x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x4.size a ≤ S507904x4.size a
  hwx1_2 : ∀ i : grid1.Coords, EltTy.bits .f32 = 32 ∨ (Rect.block (s := S507904x4) S8192x4.size (cc1_transform_2 i) (hinb1_2 i)).WholeWords (EltTy.packing .f32)

variable [Facts₀]

def dot_S2048x512_S512x640_S2048x640_1_0_0_1_n_n : DotDims S2048x512 S512x640 S2048x640 where
  lhsContracting := [1]
  rhsContracting := [0]
  lhsNonContracting := [0]
  rhsNonContracting := [1]
  lhsBatch := []
  rhsBatch := []
  wf := dot_S2048x512_S512x640_S2048x640_1_0_0_1_n_n_wf

abbrev win0_0 : Pipeline.Window sig grid0 :=
  Pipeline.Window.ofSpec (Memref.whole main_v0) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S2048x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S2048x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S4x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S8192x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2000000 : Shape := ⟨1, ![2000000]⟩
abbrev S500000 : Shape := ⟨1, ![500000]⟩
abbrev S10x16x512 : Shape := ⟨3, ![10, 16, 512]⟩
abbrev S4x4 : Shape := ⟨2, ![4, 4]⟩
abbrev S_ : Shape := ⟨0, ![]⟩
abbrev S2000000x1 : Shape := ⟨2, ![2000000, 1]⟩
abbrev S2000000x2 : Shape := ⟨2, ![2000000, 2]⟩
abbrev S2000000x16 : Shape := ⟨2, ![2000000, 16]⟩
abbrev S500000x1 : Shape := ⟨2, ![500000, 1]⟩
abbrev S500000x4 : Shape := ⟨2, ![500000, 4]⟩

abbrev nBuf : Space → Nat
  | .hbm => 147
  | .vmem => 0
  | .smem => 0
  | _ => 0

abbrev hbmTy0_0 (i : Nat) : BufTy := match i % 128 with
  | 0 => ⟨S2000000, .f32⟩
  | 1 => ⟨S2000000, .i32⟩
  | 2 => ⟨S500000, .i32⟩
  | 3 => ⟨S10x16x512, .f32⟩
  | 4 => ⟨S10x16x512, .f32⟩
  | 5 => ⟨S4x4, .f32⟩
  | 6 => ⟨S_, .f32⟩
  | 7 => ⟨S2000000, .f32⟩
  | 8 => ⟨S2000000, .f32⟩
  | 9 => ⟨S_, .f32⟩
  | 10 => ⟨S2000000, .f32⟩
  | 11 => ⟨S2000000, .f32⟩
  | 12 => ⟨S2000000, .f32⟩
  | 13 => ⟨S2000000, .i32⟩
  | 14 => ⟨S_, .i32⟩
  | 15 => ⟨S_, .i32⟩
  | 16 => ⟨S_, .i32⟩
  | 17 => ⟨S2000000, .i32⟩
  | 18 => ⟨S2000000, .i32⟩
  | 19 => ⟨S_, .i32⟩
  | 20 => ⟨S2000000, .i32⟩
  | 21 => ⟨S2000000, .i32⟩
  | 22 => ⟨S2000000, .f32⟩
  | 23 => ⟨S2000000, .f32⟩
  | 24 => ⟨S2000000x1, .f32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2000000x1, .i32⟩
  | 41 => ⟨S2000000x2, .i32⟩
  | 42 => ⟨S2000000x16, .f32⟩
  | 43 => ⟨S_, .i32⟩
  | 44 => ⟨S2000000, .i32⟩
  | 45 => ⟨S2000000, .i32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S_, .i32⟩
  | 54 => ⟨S2000000, .i32⟩
  | 55 => ⟨S2000000, .i1⟩
  | 56 => ⟨S_, .i32⟩
  | 57 => ⟨S2000000, .i32⟩
  | 58 => ⟨S2000000, .i32⟩
  | 59 => ⟨S2000000, .i32⟩
  | 60 => ⟨S2000000x1, .i32⟩
  | 61 => ⟨S2000000x1, .i32⟩
  | 62 => ⟨S2000000x2, .i32⟩
  | 63 => ⟨S2000000x16, .f32⟩
  | 64 => ⟨S_, .f32⟩
  | 65 => ⟨S2000000x1, .f32⟩
  | 66 => ⟨S2000000x1, .f32⟩
  | 67 => ⟨S2000000x16, .f32⟩
  | 68 => ⟨S2000000x16, .f32⟩
  | 69 => ⟨S2000000x16, .f32⟩
  | 70 => ⟨S2000000x16, .f32⟩
  | 71 => ⟨S2000000x16, .f32⟩
  | 72 => ⟨S_, .f32⟩
  | 73 => ⟨S2000000, .f32⟩
  | 74 => ⟨S2000000, .f32⟩
  | 75 => ⟨S_, .f32⟩
  | 76 => ⟨S2000000, .f32⟩
  | 77 => ⟨S2000000, .f32⟩
  | 78 => ⟨S2000000, .f32⟩
  | 79 => ⟨S2000000, .i32⟩
  | 80 => ⟨S_, .i32⟩
  | 81 => ⟨S_, .i32⟩
  | 82 => ⟨S_, .i32⟩
  | 83 => ⟨S2000000, .i32⟩
  | 84 => ⟨S2000000, .i32⟩
  | 85 => ⟨S_, .i32⟩
  | 86 => ⟨S2000000, .i32⟩
  | 87 => ⟨S2000000, .i32⟩
  | 88 => ⟨S2000000, .f32⟩
  | 89 => ⟨S2000000, .f32⟩
  | 90 => ⟨S2000000x1, .f32⟩
  | 91 => ⟨S_, .i32⟩
  | 92 => ⟨S2000000, .i32⟩
  | 93 => ⟨S2000000, .i1⟩
  | 94 => ⟨S_, .i32⟩
  | 95 => ⟨S2000000, .i32⟩
  | 96 => ⟨S2000000, .i32⟩
  | 97 => ⟨S2000000, .i32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x1, .i32⟩
  | 107 => ⟨S2000000x2, .i32⟩
  | 108 => ⟨S2000000x16, .f32⟩
  | 109 => ⟨S_, .i32⟩
  | 110 => ⟨S2000000, .i32⟩
  | 111 => ⟨S2000000, .i32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000x1, .i32⟩
  | _ => ⟨S2000000, .f32⟩

abbrev hbmTy0_1 (i : Nat) : BufTy := match i % 128 with
  | 0 => ⟨S2000000x2, .i32⟩
  | 1 => ⟨S2000000x16, .f32⟩
  | 2 => ⟨S_, .f32⟩
  | 3 => ⟨S2000000x1, .f32⟩
  | 4 => ⟨S2000000x1, .f32⟩
  | 5 => ⟨S2000000x16, .f32⟩
  | 6 => ⟨S2000000x16, .f32⟩
  | 7 => ⟨S2000000x16, .f32⟩
  | 8 => ⟨S2000000x16, .f32⟩
  | 9 => ⟨S2000000x16, .f32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x4, .f32⟩
  | _ => ⟨S2000000, .f32⟩

abbrev hbmTy (i : Nat) : BufTy := match i / 128 with
  | 0 => hbmTy0_0 i
  | 1 => hbmTy0_1 i
  | _ => ⟨S2000000, .f32⟩

abbrev bufTy : (tb : Table) → Fin (tcTables nBuf tb) → BufTy
  | .hbm, ⟨i, _⟩ => hbmTy i
  | _, _ => ⟨S2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_9 : Ref sig .tc := ⟨.hbm, 53, rfl⟩
abbrev main_v31 : Ref sig .tc := ⟨.hbm, 54, rfl⟩
abbrev main_v32 : Ref sig .tc := ⟨.hbm, 55, rfl⟩
abbrev main_c_10 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_14 : Ref sig .tc := ⟨.hbm, 80, rfl⟩
abbrev main_c_15 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_16 : Ref sig .tc := ⟨.hbm, 91, rfl⟩
abbrev main_v57 : Ref sig .tc := ⟨.hbm, 92, rfl⟩
abbrev main_v58 : Ref sig .tc := ⟨.hbm, 93, rfl⟩
abbrev main_c_17 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_18 : Ref sig .tc := ⟨.hbm, 98, rfl⟩
abbrev main_v62 : Ref sig .tc := ⟨.hbm, 99, rfl⟩
abbrev main_v63 : Ref sig .tc := ⟨.hbm, 100, rfl⟩
abbrev main_c_19 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_20 : Ref sig .tc := ⟨.hbm, 109, rfl⟩
abbrev main_v71 : Ref sig .tc := ⟨.hbm, 110, rfl⟩
abbrev main_v72 : Ref sig .tc := ⟨.hbm, 111, rfl⟩
abbrev main_c_21 : Ref sig .tc := ⟨.hbm, 112, rfl⟩
abbrev main_v73 : Ref sig .tc := ⟨.hbm, 113, rfl⟩
abbrev main_v74 : Ref sig .tc := ⟨.hbm, 114, rfl⟩
abbrev main_c_22 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_23 : Ref sig .tc := ⟨.hbm, 119, rfl⟩
abbrev main_v78 : Ref sig .tc := ⟨.hbm, 120, rfl⟩
abbrev main_v79 : Ref sig .tc := ⟨.hbm, 121, rfl⟩
abbrev main_c_24 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_25 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_26 : Ref sig .tc := ⟨.hbm, 138, rfl⟩
abbrev main_v94 : Ref sig .tc := ⟨.hbm, 139, rfl⟩
abbrev main_v95 : Ref sig .tc := ⟨.hbm, 140, rfl⟩
abbrev main_c_27 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bcast_S_S2000000x1 : S_.BroadcastsInDim S2000000x1 (![] : Fin 0 → Fin S2000000x1.rank)
  bcast_S2000000x1_S2000000x16_0_1 : S2000000x1.BroadcastsInDim S2000000x16 (![0, 1] : Fin 2 → Fin S2000000x16.rank)
  bcast_S_S500000 : S_.BroadcastsInDim S500000 (![] : Fin 0 → Fin S500000.rank)
  bcast_S500000_S500000x1_0 : S500000.BroadcastsInDim S500000x1 (![0] : Fin 1 → Fin S500000x1.rank)
  gather_S10x16x512_S2000000x2_S2000000x16_1_02_n_n_02_1_1161_wf : GatherDims.WF S10x16x512 S2000000x2 S2000000x16 [1] [0, 2] [] [0, 2] [] 1 ![1, 16, 1]
  gather_S4x4_S500000x1_S500000x4_1_0_n_n_0_1_14_wf : GatherDims.WF S4x4 S500000x1 S500000x4 [1] [0] [] [0] [] 1 ![1, 4]

variable [Facts₀]

def gather_S10x16x512_S2000000x2_S2000000x16_1_02_n_n_02_1_1161 : GatherDims S10x16x512 S2000000x2 S2000000x16 where
  offsetDims := [1]
  collapsedSliceDims := [0, 2]
  operandBatchingDims := []
  startIndicesBatchingDims := []
  startIndexMap := [0, 2]
  indexVectorDim := 1
  sliceSizes := ![1, 16, 1]
  wf := gather_S10x16x512_S2000000x2_S2000000x16_1_02_n_n_02_1_1161_wf
def gather_S4x4_S500000x1_S500000x4_1_0_n_n_0_1_14 : GatherDims S4x4 S500000x1 S500000x4 where
  offsetDims := [1]
  collapsedSliceDims := [0]
  operandBatchingDims := []
  startIndicesBatchingDims := []
  startIndexMap := [0]
  indexVectorDim := 1
  sliceSizes := ![1, 4]
  wf := gather_S4x4_S500000x1_S500000x4_1_0_n_n_0_1_14_wf

class Facts : Prop extends Facts₀ where

variable [Facts]
-- ==== Proof.CatDef.lean ====
/-
  The table operand of the edge kernel as ONE function of the two tables.

  A table `T : [bond, integral, grid point]` is laid out with the grid point leading and the pair (bond, integral)
  flattened, `flat T [g, 16·b + k] = T [b, k, g]`; the two tables sit side by side, hopping in columns 0–159 and
  overlap in columns 160–319 (`both`); that array is split into a leading part `hi` (its narrowing to the short
  format) and the remainder `lo = both − widen hi` narrowed again, and the operand is `[hi ‖ lo]`, 640 columns.
  Over the extended reals a change of format is the identity, so `hi = both` and `lo = both − both`, which is
  zero wherever `both` is finite: the sum of the two halves of a row gives back the table.
-/
import proofs.«402313_j9783935500642_3_alg».proof.KernelIdeal

noncomputable section

namespace Cert.KernelIdeal.Cat

open Idealize.ShloMosaic Cert.KernelIdeal

variable {F : FTy → Type} [FloatOps F] [Facts]
open Facts₀

/-- One table with the grid point leading and (bond, integral) flattened. -/
def flat (x : FVec F S10x16x512 .f32) : FVec F S512x160 .f32 :=
  shapeCast S512x160 (transpose S512x10x16 [2, 0, 1] x transposes_S10x16x512_S512x10x16_2_0_1) shapeCasts_S512x10x16_S512x160

/-- Hopping in columns 0–159, overlap in columns 160–319. -/
def both (h o : FVec F S10x16x512 .f32) : FVec F S512x320 .f32 :=
  concatenate S512x320 1 [⟨S512x160, flat h⟩, ⟨S512x160, flat o⟩] concatenates_S512x160_S512x160_S512x320_d1

/-- The leading part: the array narrowed to the short format. -/
def hi (h o : FVec F S10x16x512 .f32) : FVec F S512x320 .bf16 :=
  truncf .bf16 (both h o) bitsLt_bf16_f32

/-- The remainder after the leading part, narrowed again. -/
def lo (h o : FVec F S10x16x512 .f32) : FVec F S512x320 .bf16 :=
  truncf .bf16 (subf (both h o) (extf .f32 (hi h o) bitsLt_bf16_f32)) bitsLt_bf16_f32

/-- The kernel's table operand: leading parts in columns 0–319, remainders in columns 320–639. -/
def catAll (h o : FVec F S10x16x512 .f32) : FVec F S512x640 .bf16 :=
  concatenate S512x640 1 [⟨S512x320, hi h o⟩, ⟨S512x320, lo h o⟩] concatenates_S512x320_S512x320_S512x640_d1

end Cert.KernelIdeal.Cat

end
-- ==== Proof.HostFold.lean ====
/-
  The buffers of @main read through the fold of its host operations.

  The contents of the TensorCore's buffers at each boundary of @main are a fold from the launch memory `m`: a stretch
  of host operations rewrites the buffers it writes and leaves the rest, a kernel region leaves its arrays at what its
  write-backs produce and every other buffer as it found it. Read at one buffer the fold is a closed term:

  * the three results are slices of the two regions' output arrays: rows 0 … 1 999 999 of the edge kernel's two
    2 000 896 × 16 outputs and rows 0 … 499 999 of the node kernel's 507 904 × 4 output (`res_feat`, `res_over`,
    `res_node`);
  * the edge kernel is entered with the distances padded by 896 entries of 1, the edge types padded by 896 zeros, and
    the table operand `Cat.catAll` of the two tables (`entry_rij`, `entry_etype`, `entry_cat`);
  * the node kernel is entered with the atom types padded by 7 904 zeros and the on-site table as launched
    (`entry_atom`, `entry_onsite`): no operation and no region before it writes either of them again.

  Each proof peels the fold one operation at a time: at its own result buffer an operation holds its function's
  value, at any other buffer what was there before (the two references told apart by evaluation); a region's array
  is read by `W8_arr` / `W10_arr`, a buffer a region does not own by `W8_of_ne` / `W10_of_ne`. What is left is
  an equation between two spellings of one term, closed by `rfl` (a padding function converts its scalar by the
  identity, and a reshape's element-type cast is along `rfl`).
-/
import proofs.«402313_j9783935500642_3_alg».proof.Proof.Gen.KernelIdeal.Frame
import proofs.«402313_j9783935500642_3_alg».proof.Proof.CatDef

set_option maxRecDepth 16384

noncomputable section

namespace Cert.KernelIdeal.Fold

open Idealize.ShloMosaic Idealize.ShloMosaic.TcCoe
open Idealize.SL.Sem
open Cert.KernelIdeal Cert.KernelIdeal.Gen

variable {F : FTy → Type} [FloatOps F] [Named F]

variable (m : (ℓ : Loc nD τ sig) → Buf (Elt F) ℓ) (ρ : Dev nD → PrngReg)

/-! ## The results: slices of the regions' output arrays -/

/-- The node result is the first 500 000 rows of the node kernel's output array as its write-backs leave it: the
    last stretch is that one slice. -/
theorem res_node (c : Dev nD) : Gen.W11 m ρ c (Proc.devRef .tc main_v17) = extractStridedSlice S500000x4 ![0, 0] ((Gen.dat1 (Gen.V9 m ρ) c).arrAt 2 cfg1.N) slices_S507904x4_S500000x4_0_0 := by
  show StableHlo.after hostOps2 (W10 m ρ c) (Proc.devRef .tc main_v17) = _
  after_results
  exact congrArg (fun x : FVec F S507904x4 .f32 => extractStridedSlice S500000x4 ![0, 0] x slices_S507904x4_S500000x4_0_0) (W10_arr m ρ c 2)

/-- The first edge result is the first 2 000 000 rows of the edge kernel's first output array: the last stretch and the
    node kernel leave its buffer alone, and the stretch between the regions writes it as that slice. -/
theorem res_feat (c : Dev nD) : Gen.W11 m ρ c (Proc.devRef .tc main_v14) = extractStridedSlice S2000000x16 ![0, 0] ((Gen.dat0 (Gen.V7 m ρ) c).arrAt 3 cfg0.N) slices_S2000896x16_S2000000x16_0_0 := by
  have e1 : W11 m ρ c (Proc.devRef .tc main_v14) = W10 m ρ c (Proc.devRef .tc main_v14) := by
    show StableHlo.after hostOps2 (W10 m ρ c) (Proc.devRef .tc main_v14) = _
    after_results
  have e2 : W10 m ρ c (Proc.devRef .tc main_v14) = W9 m ρ c (Proc.devRef .tc main_v14) := W10_of_ne m ρ c main_v14 (by decide)
  rw [e1, e2]
  show StableHlo.after hostOps1 (W8 m ρ c) (Proc.devRef .tc main_v14) = _
  after_results
  exact congrArg (fun x : FVec F S2000896x16 .f32 => extractStridedSlice S2000000x16 ![0, 0] x slices_S2000896x16_S2000000x16_0_0) (W8_arr m ρ c 3)

/-- The second edge result, likewise, from the edge kernel's second output array. -/
theorem res_over (c : Dev nD) : Gen.W11 m ρ c (Proc.devRef .tc main_v15) = extractStridedSlice S2000000x16 ![0, 0] ((Gen.dat0 (Gen.V7 m ρ) c).arrAt 4 cfg0.N) slices_S2000896x16_S2000000x16_0_0 := by
  have e1 : W11 m ρ c (Proc.devRef .tc main_v15) = W10 m ρ c (Proc.devRef .tc main_v15) := by
    show StableHlo.after hostOps2 (W10 m ρ c) (Proc.devRef .tc main_v15) = _
    after_results
  have e2 : W10 m ρ c (Proc.devRef .tc main_v15) = W9 m ρ c (Proc.devRef .tc main_v15) := W10_of_ne m ρ c main_v15 (by decide)
  rw [e1, e2]
  show StableHlo.after hostOps1 (W8 m ρ c) (Proc.devRef .tc main_v15) = _
  after_results
  exact congrArg (fun x : FVec F S2000896x16 .f32 => extractStridedSlice S2000000x16 ![0, 0] x slices_S2000896x16_S2000000x16_0_0) (W8_arr m ρ c 4)

/-! ## The edge kernel's inputs as it is entered -/

/-- The distances, padded at the end by 896 entries equal to 1. -/
theorem entry_rij (c : Dev nD) : Gen.V7 m ρ c main_v0 = pad S2000896 ![0] ![896] ![0] (m ((c.tc : Thread nD τ).loc main_arg0)) (constant S_ .f32 0x3F800000#32) pads_S2000000_S2000896_08960 h_S_ := by
  dsimp only [V7, W7, W6, W5, W4, W3, W2, W1]
  after_results
  rfl

/-- The edge types, padded at the end by 896 zeros. -/
theorem entry_etype (c : Dev nD) : Gen.V7 m ρ c main_v1 = pad S2000896 ![0] ![896] ![0] (m ((c.tc : Thread nD τ).loc main_arg1)) (constantI S_ 32 0#32) pads_S2000000_S2000896_08960 h_S_ := by
  dsimp only [V7, W7, W6, W5, W4, W3, W2, W1]
  after_results
  rfl

/-- The table operand is `Cat.catAll` of the two tables as launched: the ten operations of the stretch before the
    region, composed, are that function's definition. -/
theorem entry_cat (c : Dev nD) : Gen.V7 m ρ c main_v12 = Cat.catAll (m ((c.tc : Thread nD τ).loc main_arg3)) (m ((c.tc : Thread nD τ).loc main_arg4)) := by
  dsimp only [V7, W7, W6, W5, W4, W3, W2, W1]
  after_results
  rfl

/-! ## The node kernel's inputs as it is entered -/

/-- The atom types, padded at the end by 7 904 zeros: written before the edge kernel, which does not own the buffer,
    and by no operation after. -/
theorem entry_atom (c : Dev nD) : Gen.V9 m ρ c main_v2 = pad S507904 ![0] ![7904] ![0] (m ((c.tc : Thread nD τ).loc main_arg2)) (constantI S_ 32 0#32) pads_S500000_S507904_079040 h_S_ := by
  have e1 : V9 m ρ c main_v2 = W8 m ρ c (Proc.devRef .tc main_v2) := by
    show StableHlo.after hostOps1 (W8 m ρ c) (Proc.devRef .tc main_v2) = _
    after_results
  refine e1.trans ((W8_of_ne m ρ c main_v2 (by decide)).trans ?_)
  dsimp only [W7, W6, W5, W4, W3, W2, W1]
  after_results
  rfl

/-- The on-site table is as launched: nothing before the node kernel writes it. -/
theorem entry_onsite (c : Dev nD) : Gen.V9 m ρ c main_arg5 = m ((c.tc : Thread nD τ).loc main_arg5) := by
  have e1 : V9 m ρ c main_arg5 = W8 m ρ c (Proc.devRef .tc main_arg5) := by
    show StableHlo.after hostOps1 (W8 m ρ c) (Proc.devRef .tc main_arg5) = _
    after_results
  refine e1.trans ((W8_of_ne m ρ c main_arg5 (by decide)).trans ?_)
  dsimp only [W7, W6, W5, W4, W3, W2, W1]
  after_results

end Cert.KernelIdeal.Fold

end
-- ==== Proof.Spec.lean ====
/-
  Linear interpolation of a tabulated function on a uniform grid, element by element, on the extended reals.

  A distance `r` has the position `t = (r − 1) · (1/dx)` on a grid of 512 points with spacing `dx`; its cell is
  `⌊t⌋` kept inside `[0, 510]`, its fraction `t − cell`, and the interpolated value of a row of the table is
  `y₀ + f · (y₁ − y₀)` with `y₀, y₁` the row's entries at the cell and at the next grid point. The second program
  divides by `dx` where the first multiplies by the reciprocal, reads a negative table coordinate from the end
  before it is kept in range, and blends as `y₀ · (1 − f) + y₁ · f`. On finite entries, a finite distance and a
  coordinate that is not negative the two spellings are one number; that is what this module proves, one element at a time.
  It also fixes the layout of the first program's table operand, `512 × 640`: column `off + 16·b + k` for bond `b`
  and integral `k`, the hopping table at `off = 0`, the overlap table at `off = 160`, and each entry split in two
  summands 320 columns apart.
-/
import Idealize.ShloMosaic.PureOps.Ideal
import Idealize.ShloMosaic.PureOps.Ideal.Laws
import Idealize.ShloMosaic.Lib.ValueIdx

noncomputable section

namespace Cert.Interp

open Idealize.ShloMosaic Idealize.ShloMosaic.ValueIdx

/-! ## The constants -/

/-- The word of `1.0` denotes `1`. -/
theorem ofBits_one : Ideal.ofBits .f32 0x3F800000#32 = 1 := by
  simp [Ideal.ofBits, Ideal.ieee, -EReal.coe_mul]; norm_num

/-- The second program's grid spacing: its word denotes `2363913 / 2^27`. -/
theorem ofBits_dx : Ideal.ofBits .f32 0x3C904824#32 = ((2363913 / 134217728 : ℝ) : EReal) := by
  simp [Ideal.ofBits, Ideal.ieee, -EReal.coe_mul]; norm_num

/-- The reciprocal of that spacing, the value the first program's scale is named. -/
def invDx : EReal := ((134217728 / 2363913 : ℝ) : EReal)

/-! ## The position on the grid -/

/-- `t = (r − 1) · (1/dx)`. -/
def pos (r : EReal) : EReal := (r - Ideal.ofBits .f32 0x3F800000#32) * invDx

/-- `t = (r − 1) / dx`. -/
def posDiv (r : EReal) : EReal := Ideal.div (r - Ideal.ofBits .f32 0x3F800000#32) (Ideal.ofBits .f32 0x3C904824#32)

/-- Dividing by the spacing is multiplying by its reciprocal, at every extended real. -/
theorem posDiv_eq (r : EReal) : posDiv r = pos r := by
  unfold posDiv pos invDx
  rw [ofBits_dx, Ideal.div_coe (by norm_num)]
  rw [show ((1 / (2363913 / 134217728 : ℝ) : ℝ)) = (134217728 / 2363913 : ℝ) by norm_num]

/-- A finite distance has a finite position. -/
theorem pos_coe (x : ℝ) : pos (x : EReal) = (((x - 1) * (134217728 / 2363913) : ℝ) : EReal) := by
  unfold pos invDx; rw [ofBits_one]
  rw [show ((x : EReal) - 1) = ((x - 1 : ℝ) : EReal) by rw [EReal.coe_sub]; rfl, ← EReal.coe_mul]

/-! ## The cell and the fraction -/

/-- The cell of a position as a 32-bit word: the floor, converted, kept inside `[0, 510]`. -/
def cellW (t : EReal) : BitVec 32 :=
  IntOp.minsi 510#32 (IntOp.maxsi 0#32 (Ideal.fptosi 32 (Ideal.liftRound Int.floor t)))

theorem clip_range (lo hi : BitVec 32) (z : BitVec 32) (h : lo.toInt ≤ hi.toInt) :
    lo.toInt ≤ (IntOp.minsi hi (IntOp.maxsi lo z)).toInt ∧ (IntOp.minsi hi (IntOp.maxsi lo z)).toInt ≤ hi.toInt := by
  unfold IntOp.minsi IntOp.maxsi
  simp only [BitVec.slt, decide_eq_true_eq]
  split_ifs <;> omega

/-- The cell lies in `[0, 510]`. -/
theorem cellW_range (t : EReal) : 0 ≤ (cellW t).toInt ∧ (cellW t).toInt ≤ 510 := by
  have := clip_range 0#32 510#32 (Ideal.fptosi 32 (Ideal.liftRound Int.floor t)) (by decide)
  simpa [cellW] using this

/-- The cell as a grid point, and the next grid point. -/
def cellFin (t : EReal) : Fin 512 := ⟨min (cellW t).toInt.toNat 510, by omega⟩
def cellFin1 (t : EReal) : Fin 512 := ⟨min (cellW t).toInt.toNat 510 + 1, by omega⟩

/-- The fraction of a position inside its cell. -/
def frac (t : EReal) : EReal := t - (((cellW t).toInt : ℝ) : EReal)

/-! ## The table coordinates -/

/-- A bond type kept inside `[0, 9]`. -/
def bondW (e : BitVec 32) : BitVec 32 := IntOp.minsi 9#32 (IntOp.maxsi 0#32 e)
def bondFin (e : BitVec 32) : Fin 10 := ⟨min (bondW e).toInt.toNat 9, by omega⟩

/-- A coordinate read from the end when negative: `e + n` below zero, else `e`. -/
def wrapW (n e : BitVec 32) : BitVec 32 := Scalar.select (IntOp.cmpi .slt e 0#32) (IntOp.addi e n) e

/-- The second program's coordinates: wrapped, then kept inside the axis. -/
def bondRefFin (e : BitVec 32) : Fin 10 := ⟨min (wrapW 10#32 e).toInt.toNat 9, by omega⟩
def cellRefFin (t : EReal) : Fin 512 := ⟨min (wrapW 512#32 (cellW t)).toInt.toNat 511, by omega⟩
def cellRefFin1 (t : EReal) : Fin 512 := ⟨min (wrapW 512#32 (IntOp.addi (cellW t) 1#32)).toInt.toNat 511, by omega⟩

/-- An atom type as a row of the onsite table, in both programs' readings. -/
def rowFin (a : BitVec 32) : Fin 4 := ⟨min a.toInt.toNat 3, by omega⟩
def rowRefFin (a : BitVec 32) : Fin 4 := ⟨min (wrapW 4#32 a).toInt.toNat 3, by omega⟩

theorem wrapW_of_nonneg (n e : BitVec 32) (h : 0 ≤ e.toInt) : wrapW n e = e := by
  unfold wrapW IntOp.cmpi
  have hd : decide (e.toInt < 0) = false := by simpa using h
  simp [Scalar.select, BitVec.slt, hd]

theorem bondW_of_nonneg (e : BitVec 32) (h : 0 ≤ e.toInt) : (bondW e).toInt.toNat = min e.toInt.toNat 9 := by
  unfold bondW IntOp.minsi IntOp.maxsi
  simp only [BitVec.slt, decide_eq_true_eq]
  have h9 : (9#32 : BitVec 32).toInt = 9 := by decide
  have h0 : (0#32 : BitVec 32).toInt = 0 := by decide
  split_ifs <;> omega

/-- A bond type that is not negative is read alike by the two programs. -/
theorem bondRefFin_eq (e : BitVec 32) (h : 0 ≤ e.toInt) : bondRefFin e = bondFin e := by
  unfold bondRefFin bondFin
  apply Fin.ext
  simp only [wrapW_of_nonneg _ _ h, bondW_of_nonneg e h]
  omega

theorem cellRefFin_eq (t : EReal) : cellRefFin t = cellFin t := by
  have h := cellW_range t
  unfold cellRefFin cellFin
  apply Fin.ext
  simp only [wrapW_of_nonneg _ _ h.1]
  omega

theorem cellRefFin1_eq (t : EReal) : cellRefFin1 t = cellFin1 t := by
  have h := cellW_range t
  have h1 : (IntOp.addi (cellW t) 1#32).toInt = (cellW t).toInt + 1 := by
    unfold IntOp.addi
    rw [BitVec.toInt_add]
    have : (1#32 : BitVec 32).toInt = 1 := by decide
    rw [this]
    have := h.1; have := h.2
    simp only [Int.bmod]
    omega
  unfold cellRefFin1 cellFin1
  apply Fin.ext
  simp only [wrapW_of_nonneg _ _ (by omega : 0 ≤ (IntOp.addi (cellW t) 1#32).toInt), h1]
  omega

/-- An atom type inside `[0, 3]` is read alike by the two programs. -/
theorem rowRefFin_eq (a : BitVec 32) (h : 0 ≤ a.toInt) : rowRefFin a = rowFin a := by
  unfold rowRefFin rowFin
  apply Fin.ext
  simp only [wrapW_of_nonneg _ _ h]

/-! ## The two blends -/

def lerpK (y0 y1 f : EReal) : EReal := y0 + f * (y1 - y0)
def lerpR (y0 y1 f : EReal) : EReal := y0 * (Ideal.ofBits .f32 0x3F800000#32 - f) + y1 * f

/-- On the reals the two blends are one number. -/
theorem lerp_eq (a b g : ℝ) : lerpR (a : EReal) (b : EReal) (g : EReal) = lerpK (a : EReal) (b : EReal) (g : EReal) := by
  unfold lerpR lerpK
  rw [ofBits_one]
  have e1 : ((1 : EReal) - (g : EReal)) = ((1 - g : ℝ) : EReal) := by rw [EReal.coe_sub]; rfl
  have e2 : ((b : EReal) - (a : EReal)) = ((b - a : ℝ) : EReal) := by rw [EReal.coe_sub]
  rw [e1, e2, ← EReal.coe_mul, ← EReal.coe_mul, ← EReal.coe_mul, ← EReal.coe_add, ← EReal.coe_add]
  congr 1; ring

/-- The fraction of a finite position is finite. -/
theorem frac_coe (x : ℝ) : frac (x : EReal) = ((x - ((cellW (x : EReal)).toInt : ℝ) : ℝ) : EReal) := by
  unfold frac; rw [EReal.coe_sub]

/-! ## One element of each result -/

/-- The first program's interpolated entry for distance `r`, bond type `e`, integral `q`. -/
def edgeK (r : EReal) (e : BitVec 32) (tab : (⟨3, ![10, 16, 512]⟩ : Shape).Idx → EReal) (q : Fin 16) : EReal :=
  lerpK (tab (ix3 (bondFin e) q (cellFin (pos r)))) (tab (ix3 (bondFin e) q (cellFin1 (pos r)))) (frac (pos r))

/-- The second program's. -/
def edgeR (r : EReal) (e : BitVec 32) (tab : (⟨3, ![10, 16, 512]⟩ : Shape).Idx → EReal) (q : Fin 16) : EReal :=
  lerpR (tab (ix3 (bondRefFin e) q (cellRefFin (posDiv r)))) (tab (ix3 (bondRefFin e) q (cellRefFin1 (posDiv r)))) (frac (posDiv r))

/-- A finite distance, a bond type that is not negative, a finite table: the two entries are one number. -/
theorem edgeR_eq (r : EReal) (e : BitVec 32) (tab : (⟨3, ![10, 16, 512]⟩ : Shape).Idx → EReal) (q : Fin 16)
    (hr : ∃ x : ℝ, r = (x : EReal)) (he : 0 ≤ e.toInt) (htab : ∀ i, ∃ x : ℝ, tab i = (x : EReal)) :
    edgeR r e tab q = edgeK r e tab q := by
  obtain ⟨x, rfl⟩ := hr
  unfold edgeR edgeK
  rw [posDiv_eq, cellRefFin_eq, cellRefFin1_eq, bondRefFin_eq e he]
  obtain ⟨a, ha⟩ := htab (ix3 (bondFin e) q (cellFin (pos (x : EReal))))
  obtain ⟨b, hb⟩ := htab (ix3 (bondFin e) q (cellFin1 (pos (x : EReal))))
  rw [ha, hb, pos_coe, frac_coe]
  exact lerp_eq a b _

/-- The column of the table operand that holds bond `b`, integral `k`, in the block starting at column `off`. -/
def colFin (off : Nat) (b : Fin 10) (k : Fin 16) : Fin 640 := ⟨(off + 16 * b.val + k.val) % 640, Nat.mod_lt _ (by decide)⟩

/-- The first program's entry read off its table operand: each table entry is the sum of two summands 320 columns apart. -/
def edgeCat (r : EReal) (e : BitVec 32) (cat : (⟨2, ![512, 640]⟩ : Shape).Idx → EReal) (off : Nat) (q : Fin 16) : EReal :=
  lerpK (cat (ix2 (cellFin (pos r)) (colFin off (bondFin e) q)) + cat (ix2 (cellFin (pos r)) (colFin (320 + off) (bondFin e) q)))
        (cat (ix2 (cellFin1 (pos r)) (colFin off (bondFin e) q)) + cat (ix2 (cellFin1 (pos r)) (colFin (320 + off) (bondFin e) q)))
        (frac (pos r))

/-- Where the two summands of every entry add up to the table `tab`, the operand's entry is the table's. -/
theorem edgeCat_eq (r : EReal) (e : BitVec 32) (cat : (⟨2, ![512, 640]⟩ : Shape).Idx → EReal) (off : Nat)
    (tab : (⟨3, ![10, 16, 512]⟩ : Shape).Idx → EReal) (q : Fin 16)
    (h : ∀ (g : Fin 512) (b : Fin 10) (k : Fin 16), cat (ix2 g (colFin off b k)) + cat (ix2 g (colFin (320 + off) b k)) = tab (ix3 b k g)) :
    edgeCat r e cat off q = edgeK r e tab q := by
  unfold edgeCat edgeK; rw [h, h]

end Cert.Interp

end
-- ==== Proof.EdgeLerp.lean ====
/-
  The edge program's interpolation, read one element at a time on the extended reals.

  For the distance `r` of edge `p` the program forms the position `t = (r − 1) · (1/dx)` on a grid of 512 points, the
  cell `⌊t⌋` kept inside `[0, 510]`, and the fraction `t − cell`. It then reads row `cell` of a `512 × 640` table without
  indexing: it builds the `2048 × 512` matrix whose row `p` is `1` at the grid point `cell` and `0` elsewhere, multiplies
  it into the table, and adds the product's two 320-column halves. Because `0 · x = 0` and `0 + x = x` for every
  extended real, the sum over the 512 grid points of (one-hot entry) · (table entry) is the table's entry at the cell,
  whatever the other rows hold. The same is done for the next grid point `cell + 1`, the difference of the two rows is
  taken, and the interpolated row is `y₀ + f · (y₁ − y₀)`.
-/
import proofs.«402313_j9783935500642_3_alg».proof.Proof.Gen.KernelIdeal.Skeleton
import proofs.«402313_j9783935500642_3_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.EdgeLerp

open Idealize.ShloMosaic Idealize.SL.Sem Idealize.ShloMosaic.ValueIdx

/-! ## Columns: a vector as a one-column matrix, and a column spread over many -/

/-- A vector viewed as a one-column matrix reads, at row `i`, the vector's entry `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix spread over `b` columns reads, at `(p, c)`, the column's entry `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The bond type, the position, the cell and the fraction -/

/-- The scale the program names `inv_dx` is the reciprocal of the grid spacing. -/
theorem inv_dx : Named.named (F := Ideal) Cert.KernelIdeal.κ "inv_dx" (φ := .f32) 0x42631C72#32 = Interp.invDx :=
  IdealRules.named_const.ideal_named_scalar _ _ _ _ rfl

/-- The bond type of edge `p`, kept inside `[0, 9]`. -/
theorem pay5_apply (v2 : Vec Ideal S2048 .i32) (p : Fin 2048) :
    Gen.k0_pay5 (F := Ideal) v2 (ix1 p) = Interp.bondW (v2 (ix1 p)) := by
  unfold Gen.k0_pay5
  show IntOp.minsi 9#32 (IntOp.maxsi 0#32 (shapeCast S2048 v2 _ (ix1 p))) = _
  rw [shapeCast_self]
  rfl

/-- The position of edge `p` on the grid: `(r − 1) · (1/dx)`. -/
theorem pay6_apply (v0 : Vec Ideal S2048 .f32) (p : Fin 2048) :
    Gen.k0_pay6 v0 (ix1 p) = Interp.pos (v0 (ix1 p)) := by
  unfold Gen.k0_pay6
  show (shapeCast S2048 v0 _ (ix1 p) - Ideal.ofBits .f32 0x3F800000#32)
    * Named.named (F := Ideal) Cert.KernelIdeal.κ "inv_dx" (φ := .f32) 0x42631C72#32 = _
  rw [shapeCast_self, inv_dx]
  rfl

/-- The cell of edge `p`: the floor of the position, converted, kept inside `[0, 510]`. -/
theorem pay7_apply (v0 : Vec Ideal S2048 .f32) (p : Fin 2048) :
    Gen.k0_pay7 v0 (ix1 p) = Interp.cellW (Interp.pos (v0 (ix1 p))) := by
  unfold Gen.k0_pay7
  show IntOp.minsi 510#32 (IntOp.maxsi 0#32 (Ideal.fptosi 32 (Ideal.liftRound Int.floor (Gen.k0_pay6 v0 (ix1 p))))) = _
  rw [pay6_apply]
  rfl

/-- The fraction of edge `p` inside its cell, as a one-column matrix. -/
theorem pay8_apply (v0 : Vec Ideal S2048 .f32) (p : Fin 2048) :
    Gen.k0_pay8 v0 (ix2 p 0) = Interp.frac (Interp.pos (v0 (ix1 p))) := by
  unfold Gen.k0_pay8
  refine (shapeCast_col_apply _ _ p 0).trans ?_
  show Gen.k0_pay6 v0 (ix1 p) - (((Gen.k0_pay7 v0 (ix1 p)).toInt : ℝ) : EReal) = _
  rw [pay6_apply, pay7_apply]
  rfl

/-- The cell of edge `p`, as a one-column matrix. -/
theorem pay9_apply (v0 : Vec Ideal S2048 .f32) (p : Fin 2048) (u : Fin 1) :
    Gen.k0_pay9 v0 (ix2 p u) = Interp.cellW (Interp.pos (v0 (ix1 p))) := by
  unfold Gen.k0_pay9
  exact (shapeCast_col_apply _ _ p u).trans (pay7_apply v0 p)

/-- The table operand is read as it stands. -/
theorem pay10_eq (v35 : Vec Ideal S512x640 .bf16) : Gen.k0_pay10 v35 = v35 := by
  unfold Gen.k0_pay10
  exact shapeCast_self _ _

/-! ## The matrix product at an index

The product contracts the left operand's axis 1 with the right operand's axis 0; its output index `(p, c)` and the
contraction position `g` give the left operand's index `(p, g)` and the right operand's `(g, c)`, axis by axis. -/

theorem lhs_axis0 (j : S2048x640.Idx) (k : dot_S2048x512_S512x640_S2048x640_1_0_0_1_n_n.contr.Idx) :
    (dot_S2048x512_S512x640_S2048x640_1_0_0_1_n_n.lhsIdx j k 0).val = (j 0).val := by
  unfold DotDims.lhsIdx
  rw [dif_neg (show ¬ (0 : Fin S2048x512.rank) ∈ dot_S2048x512_S512x640_S2048x640_1_0_0_1_n_n.lhsBatch by decide),
    dif_pos (show (0 : Fin S2048x512.rank) ∈ dot_S2048x512_S512x640_S2048x640_1_0_0_1_n_n.lhsNonContracting by decide)]
  rfl

theorem lhs_axis1 (j : S2048x640.Idx) (k : dot_S2048x512_S512x640_S2048x640_1_0_0_1_n_n.contr.Idx) :
    (dot_S2048x512_S512x640_S2048x640_1_0_0_1_n_n.lhsIdx j k 1).val = (k ⟨0, by decide⟩).val :=
  dot_S2048x512_S512x640_S2048x640_1_0_0_1_n_n.lhsIdx_val_of_single rfl j k

theorem rhs_axis0 (j : S2048x640.Idx) (k : dot_S2048x512_S512x640_S2048x640_1_0_0_1_n_n.contr.Idx) :
    (dot_S2048x512_S512x640_S2048x640_1_0_0_1_n_n.rhsIdx j k 0).val = (k ⟨0, by decide⟩).val :=
  dot_S2048x512_S512x640_S2048x640_1_0_0_1_n_n.rhsIdx_val_of_single rfl j k

theorem rhs_axis1 (j : S2048x640.Idx) (k : dot_S2048x512_S512x640_S2048x640_1_0_0_1_n_n.contr.Idx) :
    (dot_S2048x512_S512x640_S2048x640_1_0_0_1_n_n.rhsIdx j k 1).val = (j 1).val := by
  unfold DotDims.rhsIdx
  rw [dif_neg (show ¬ (1 : Fin S512x640.rank) ∈ dot_S2048x512_S512x640_S2048x640_1_0_0_1_n_n.rhsBatch by decide),
    dif_pos (show (1 : Fin S512x640.rank) ∈ dot_S2048x512_S512x640_S2048x640_1_0_0_1_n_n.rhsNonContracting by decide)]
  rfl

/-- The product of a `2048 × 512` by a `512 × 640` matrix into a zero accumulator, read at `(p, c)`: the sum over the
    512 grid points of the products of the entries. -/
theorem matmul_apply_ix (A : FVec Ideal S2048x512 .bf16) (B : FVec Ideal S512x640 .bf16) (p : Fin 2048) (c : Fin 640) :
    matmul dot_S2048x512_S512x640_S2048x640_1_0_0_1_n_n none A B (constant (F := Ideal) S2048x640 .f32 0x00000000#32) (ix2 p c)
      = ∑ g : Fin 512, A (ix2 p g) * B (ix2 g c) := by
  show FloatOps.matmul dot_S2048x512_S512x640_S2048x640_1_0_0_1_n_n none A B (constant (F := Ideal) S2048x640 .f32 0x00000000#32) (ix2 p c) = _
  rw [Ideal.matmul_constant_zero_apply,
    ← Equiv.sum_comp (contrEquiv1 dot_S2048x512_S512x640_S2048x640_1_0_0_1_n_n 512 rfl rfl).symm]
  refine Finset.sum_congr rfl fun g _ => ?_
  have cg := contrEquiv1_symm_val dot_S2048x512_S512x640_S2048x640_1_0_0_1_n_n 512 rfl rfl g
  have l : dot_S2048x512_S512x640_S2048x640_1_0_0_1_n_n.lhsIdx (ix2 p c)
      ((contrEquiv1 dot_S2048x512_S512x640_S2048x640_1_0_0_1_n_n 512 rfl rfl).symm g) = ix2 p g := by
    funext ax; apply Fin.ext
    match ax with
    | ⟨0, _⟩ => exact lhs_axis0 _ _
    | ⟨1, _⟩ => exact (lhs_axis1 _ _).trans cg
  have r : dot_S2048x512_S512x640_S2048x640_1_0_0_1_n_n.rhsIdx (ix2 p c)
      ((contrEquiv1 dot_S2048x512_S512x640_S2048x640_1_0_0_1_n_n 512 rfl rfl).symm g) = ix2 g c := by
    funext ax; apply Fin.ext
    match ax with
    | ⟨0, _⟩ => exact (rhs_axis0 _ _).trans cg
    | ⟨1, _⟩ => exact rhs_axis1 _ _
  rw [l, r]

/-! ## One-hot rows -/

/-- The comparison of two words for equality, widened and converted: `1` where they agree, `0` elsewhere. -/
theorem onehot_word (a b : BitVec 32) :
    ((((IntOp.cmpi .eq a b).setWidth 32).toInt : ℝ) : EReal) = if a = b then 1 else 0 := by
  have hc : IntOp.cmpi .eq a b = BitVec.ofBool (a == b) := rfl
  rw [hc]
  by_cases h : a = b
  · rw [if_pos h, beq_iff_eq.mpr h]
    have : ((BitVec.ofBool true).setWidth 32).toInt = 1 := by decide
    rw [this, Int.cast_one, EReal.coe_one]
  · rw [if_neg h, beq_eq_false_iff_ne.mpr h]
    have : ((BitVec.ofBool false).setWidth 32).toInt = 0 := by decide
    rw [this, Int.cast_zero, EReal.coe_zero]

/-- A sum against a one-hot row picks one entry out: the other terms are `0 · x = 0`, at every extended real `x`. -/
theorem sum_onehot {n : ℕ} (w : Fin n → BitVec 32) (c : BitVec 32) (g0 : Fin n) (hw : ∀ g, w g = c ↔ g = g0)
    (f : Fin n → EReal) :
    ∑ g : Fin n, ((((IntOp.cmpi .eq (w g) c).setWidth 32).toInt : ℝ) : EReal) * f g = f g0 := by
  rw [Finset.sum_eq_single g0]
  · rw [onehot_word, if_pos ((hw g0).mpr rfl), one_mul]
  · intro g _ hg
    rw [onehot_word, if_neg (fun h => hg ((hw g).mp h)), zero_mul]
  · intro h; exact absurd (Finset.mem_univ g0) h

/-- A word in `[0, 2³¹)` is the word of a number below 512 exactly when their values agree. -/
theorem ofNat_eq_iff (w : BitVec 32) (h0 : 0 ≤ w.toInt) (g : Fin 512) :
    BitVec.ofNat 32 g.val = w ↔ g.val = w.toInt.toNat := by
  have hg := g.isLt
  rw [BitVec.toInt_eq_toNat_cond] at h0 ⊢
  constructor
  · intro h
    have := congrArg BitVec.toNat h
    rw [BitVec.toNat_ofNat] at this
    split_ifs at h0 ⊢ <;> omega
  · intro h
    apply BitVec.eq_of_toNat_eq
    rw [BitVec.toNat_ofNat]
    split_ifs at h0 h <;> omega

/-- The grid point whose word is the cell's word is the cell. -/
theorem ofNat_eq_cellW_iff (t : EReal) (g : Fin 512) :
    BitVec.ofNat 32 g.val = Interp.cellW t ↔ g = Interp.cellFin t := by
  have hr := Interp.cellW_range t
  rw [ofNat_eq_iff _ hr.1, Fin.ext_iff]
  show g.val = _ ↔ g.val = min (Interp.cellW t).toInt.toNat 510
  omega

/-- The grid point whose word is the word after the cell's is the next grid point. -/
theorem ofNat_eq_cellW_succ_iff (t : EReal) (g : Fin 512) :
    BitVec.ofNat 32 g.val = IntOp.addi (Interp.cellW t) 1#32 ↔ g = Interp.cellFin1 t := by
  have hr := Interp.cellW_range t
  have h1 : (IntOp.addi (Interp.cellW t) 1#32).toInt = (Interp.cellW t).toInt + 1 := by
    unfold IntOp.addi
    rw [BitVec.toInt_add]
    have : (1#32 : BitVec 32).toInt = 1 := by decide
    rw [this]
    have := hr.1; have := hr.2
    simp only [Int.bmod]
    omega
  rw [ofNat_eq_iff _ (by omega), Fin.ext_iff, h1]
  show g.val = _ ↔ g.val = min (Interp.cellW t).toInt.toNat 510 + 1
  omega

/-! ## A table row read through a one-hot product -/

/-- The `2048 × 512` matrix whose row `p` is `1` at the grid point whose word is `cells p`, `0` elsewhere. -/
def oneHot (cells : IVec S2048x1 32) : FVec Ideal S2048x512 .bf16 :=
  truncf .bf16 (sitofp .f32 (extui 32 (cmpi .eq (iota .tc S2048x512 32 [1] Gen.iota_S2048x512_d1_w32)
    (broadcastTo S2048x512 cells Gen.broadcasts_S2048x1_S2048x512)) Gen.natLt_1_32)) Gen.bitsLt_bf16_f32

theorem oneHot_apply (cells : IVec S2048x1 32) (p : Fin 2048) (g : Fin 512) :
    oneHot cells (ix2 p g)
      = ((((IntOp.cmpi .eq (BitVec.ofNat 32 g.val) (cells (ix2 p (0 : Fin 1)))).setWidth 32).toInt : ℝ) : EReal) := by
  unfold oneHot
  show ((((IntOp.cmpi .eq (iota .tc S2048x512 32 [1] _ (ix2 p g))
    (broadcastTo S2048x512 cells _ (ix2 p g))).setWidth 32).toInt : ℝ) : EReal) = _
  rw [iota_single_apply, broadcastTo_col_apply]

/-- The one-hot matrix times the table, its two 320-column halves added. -/
def lookup (cells : IVec S2048x1 32) (tab : FVec Ideal S512x640 .bf16) : FVec Ideal S2048x320 .f32 :=
  addf
    (extractStridedSlice S2048x320 ![0, 0]
      (matmul dot_S2048x512_S512x640_S2048x640_1_0_0_1_n_n none (oneHot cells) tab (constant (F := Ideal) S2048x640 .f32 0x00000000#32))
      Gen.slices_S2048x640_o0_0_S2048x320)
    (extractStridedSlice S2048x320 ![0, 320]
      (matmul dot_S2048x512_S512x640_S2048x640_1_0_0_1_n_n none (oneHot cells) tab (constant (F := Ideal) S2048x640 .f32 0x00000000#32))
      Gen.slices_S2048x640_o0_320_S2048x320)

/-- Where row `p`'s word is the word of grid point `g0` alone, the product reads the table's row `g0`: the two
    summands 320 columns apart, added. -/
theorem lookup_apply (cells : IVec S2048x1 32) (tab : FVec Ideal S512x640 .bf16) (p : Fin 2048) (col : Fin 320)
    (g0 : Fin 512) (hg : ∀ g : Fin 512, BitVec.ofNat 32 g.val = cells (ix2 p (0 : Fin 1)) ↔ g = g0) :
    lookup cells tab (ix2 p col)
      = tab (ix2 g0 ⟨col.val, by omega⟩) + tab (ix2 g0 ⟨320 + col.val, by omega⟩) := by
  have hrow : ∀ c : Fin 640,
      matmul dot_S2048x512_S512x640_S2048x640_1_0_0_1_n_n none (oneHot cells) tab (constant (F := Ideal) S2048x640 .f32 0x00000000#32) (ix2 p c)
        = tab (ix2 g0 c) := fun c => by
    rw [matmul_apply_ix]
    simp only [oneHot_apply]
    exact sum_onehot (fun g : Fin 512 => BitVec.ofNat 32 g.val) _ g0 hg (fun g => tab (ix2 g c))
  unfold lookup
  refine (congrArg₂ (· + ·)
    (slice2_axis1_apply 0 _ _ p col (⟨col.val, by omega⟩ : Fin 640) (Nat.zero_add _).symm)
    (slice2_axis1_apply 320 _ _ p col (⟨320 + col.val, by omega⟩ : Fin 640) rfl)).trans ?_
  rw [hrow, hrow]

/-! ## The two table rows and the blend -/

/-- The table's row at the cell of edge `p`. -/
theorem pay11_apply (v0 : Vec Ideal S2048 .f32) (v35 : Vec Ideal S512x640 .bf16) (p : Fin 2048) (col : Fin 320) :
    Gen.k0_pay11 v0 v35 (ix2 p col)
      = v35 (ix2 (Interp.cellFin (Interp.pos (v0 (ix1 p)))) ⟨col.val, by omega⟩)
        + v35 (ix2 (Interp.cellFin (Interp.pos (v0 (ix1 p)))) ⟨320 + col.val, by omega⟩) := by
  have e : Gen.k0_pay11 v0 v35 = lookup (Gen.k0_pay9 v0) (Gen.k0_pay10 v35) := rfl
  rw [e, lookup_apply (Gen.k0_pay9 v0) (Gen.k0_pay10 v35) p col (Interp.cellFin (Interp.pos (v0 (ix1 p))))
    (fun g => by rw [pay9_apply]; exact ofNat_eq_cellW_iff _ g), pay10_eq]

/-- The table's row at the next grid point, less the row at the cell. -/
theorem pay12_apply (v0 : Vec Ideal S2048 .f32) (v35 : Vec Ideal S512x640 .bf16) (p : Fin 2048) (col : Fin 320) :
    Gen.k0_pay12 v0 v35 (ix2 p col)
      = (v35 (ix2 (Interp.cellFin1 (Interp.pos (v0 (ix1 p)))) ⟨col.val, by omega⟩)
          + v35 (ix2 (Interp.cellFin1 (Interp.pos (v0 (ix1 p)))) ⟨320 + col.val, by omega⟩))
        - Gen.k0_pay11 v0 v35 (ix2 p col) := by
  have e : Gen.k0_pay12 v0 v35
      = subf (lookup (addi (Gen.k0_pay9 v0) (broadcast S2048x1 1#32)) (Gen.k0_pay10 v35)) (Gen.k0_pay11 v0 v35) := rfl
  rw [e, subf_apply,
    lookup_apply (addi (Gen.k0_pay9 v0) (broadcast S2048x1 1#32)) (Gen.k0_pay10 v35) p col
      (Interp.cellFin1 (Interp.pos (v0 (ix1 p))))
      (fun g => by
        show BitVec.ofNat 32 g.val = IntOp.addi (Gen.k0_pay9 v0 (ix2 p (0 : Fin 1))) 1#32 ↔ _
        rw [pay9_apply]; exact ofNat_eq_cellW_succ_iff _ g),
    pay10_eq]

/-- The interpolated row: `y₀ + f · (y₁ − y₀)`. -/
theorem pay13_apply (v20 : FVec Ideal S2048x1 .f32) (v41 v45 : FVec Ideal S2048x320 .f32) (p : Fin 2048) (col : Fin 320) :
    Gen.k0_pay13 v20 v41 v45 (ix2 p col) = v41 (ix2 p col) + v20 (ix2 p 0) * v45 (ix2 p col) := by
  unfold Gen.k0_pay13
  show v41 (ix2 p col) + broadcastTo S2048x320 v20 _ (ix2 p col) * v45 (ix2 p col) = _
  rw [broadcastTo_col_apply]

end Cert.KernelIdeal.EdgeLerp

end
-- ==== Proof.EdgeSelect.lean ====
import proofs.«402313_j9783935500642_3_alg».proof.Proof.Gen.KernelIdeal.Skeleton
import Idealize.ShloMosaic.Lib.ValueLayout
import Idealize.ShloMosaic.PureOps.Ideal.Laws
import Mathlib.Data.EReal.Basic
import Mathlib.Tactic.IntervalCases

/-!
# The edge kernel's choice of one bond type's sixteen columns

The edge kernel interpolates, for every edge of a block of 2048, all 320 table columns (ten bond types
times sixteen hopping columns, then ten times sixteen overlap columns) and then keeps the sixteen
columns of the edge's own bond type by a sum over the ten types b of  mask_b · Y[:, 16 b : 16 b + 16],
where mask_b is 1 on the rows whose type word is b and 0 elsewhere.

Read at one row p whose type word is one of 0 … 9, exactly one mask is 1; the nine other products
are 0 · x = 0 whatever the extended real x is, and 0 + x = x. So the sum is the one column
Y[p, 16 · type + q] (hopping) or Y[p, 160 + 16 · type + q] (overlap), with no finiteness assumption.
-/

noncomputable section

namespace Cert.KernelIdeal.EdgeSelect

open Idealize.ShloMosaic Idealize.SL.Sem Idealize.ShloMosaic.ValueIdx

/-! ## Two column forms of the layout operations, read at an index -/

/-- An [a] array cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A mask column -/

/-- The factor of bond type b at row p: 1 when the row's type word is b, else 0. -/
def sel (v7 : IVec S2048 32) (b : BitVec 32) (p : Fin 2048) : EReal := if v7 (ix1 p) = b then 1 else 0

/-- The mask column of bond type b: the comparison of the type words with b, widened to a word, converted to a
    float and cast to a column. -/
def maskCol (v7 : IVec S2048 32) (b : BitVec 32) : FVec Ideal S2048x1 .f32 :=
  shapeCast S2048x1 (sitofp .f32 (extui 32 (cmpi .eq v7 (broadcast S2048 b)) Gen.natLt_1_32)) Gen.shapeCasts_S2048_S2048x1

/-- A mask column broadcast along the sixteen columns reads the row's factor. -/
theorem maskCol_bcast (v7 : IVec S2048 32) (b : BitVec 32) (p : Fin 2048) (q : Fin 16) :
    broadcastTo S2048x16 (maskCol v7 b) Gen.broadcasts_S2048x1_S2048x16 (ix2 p q) = sel v7 b p := by
  refine (broadcastTo_a1_ab_apply _ _ p q).trans ?_
  refine (shapeCast_a_a1_apply _ _ p 0).trans ?_
  show (((BitVec.setWidth 32 (IntOp.cmpi .eq (v7 (ix1 p)) b)).toInt : ℝ) : EReal) = _
  unfold sel
  by_cases h : v7 (ix1 p) = b
  · have hc : IntOp.cmpi .eq (v7 (ix1 p)) b = 1#1 := by simp [IntOp.cmpi, h]
    have h1 : (BitVec.setWidth 32 (1#1 : BitVec 1)).toInt = 1 := by decide
    rw [if_pos h, hc, h1, Int.cast_one, EReal.coe_one]
  · have hb : (v7 (ix1 p) == b) = false := beq_eq_false_iff_ne.mpr h
    have hc : IntOp.cmpi .eq (v7 (ix1 p)) b = 0#1 := by simp [IntOp.cmpi, hb]
    have h0 : (BitVec.setWidth 32 (0#1 : BitVec 1)).toInt = 0 := by decide
    rw [if_neg h, hc, h0, Int.cast_zero, EReal.coe_zero]

/-- The ten masks the kernel builds are the mask columns of the words 0 … 9. -/
theorem pay14_eq (v7 : IVec S2048 32) : Gen.k0_pay14 (F := Ideal) v7 = maskCol v7 0#32 := rfl
theorem pay15_eq (v7 : IVec S2048 32) : Gen.k0_pay15 (F := Ideal) v7 = maskCol v7 1#32 := rfl
theorem pay16_eq (v7 : IVec S2048 32) : Gen.k0_pay16 (F := Ideal) v7 = maskCol v7 2#32 := rfl
theorem pay18_eq (v7 : IVec S2048 32) : Gen.k0_pay18 (F := Ideal) v7 = maskCol v7 3#32 := rfl
theorem pay21_eq (v7 : IVec S2048 32) : Gen.k0_pay21 (F := Ideal) v7 = maskCol v7 4#32 := rfl
theorem pay22_eq (v7 : IVec S2048 32) : Gen.k0_pay22 (F := Ideal) v7 = maskCol v7 5#32 := rfl
theorem pay23_eq (v7 : IVec S2048 32) : Gen.k0_pay23 (F := Ideal) v7 = maskCol v7 6#32 := rfl
theorem pay24_eq (v7 : IVec S2048 32) : Gen.k0_pay24 (F := Ideal) v7 = maskCol v7 7#32 := rfl
theorem pay1_eq (v7 : IVec S2048 32) (c : BitVec 32) : Gen.k0_pay1 (F := Ideal) v7 c = maskCol v7 c := rfl
theorem pay2_eq (v7 : IVec S2048 32) : Gen.k0_pay2 (F := Ideal) v7 = maskCol v7 9#32 := rfl

/-- The constant 0.0 the accumulation starts from. -/
theorem zero_const : (Scalar.ofBits .f32 0x00000000#32 : Ideal .f32) = 0 := Ideal.ofBits_zero_f32

/-- One of the words 0 … 9. -/
theorem word_cases (w : BitVec 32) (h : 0 ≤ w.toInt ∧ w.toInt ≤ 9) :
    w = 0#32 ∨ w = 1#32 ∨ w = 2#32 ∨ w = 3#32 ∨ w = 4#32 ∨ w = 5#32 ∨ w = 6#32 ∨ w = 7#32 ∨ w = 8#32 ∨ w = 9#32 := by
  obtain ⟨h0, h9⟩ := h
  have hw : w = BitVec.ofInt 32 w.toInt := (BitVec.ofInt_toInt).symm
  generalize w.toInt = n at hw h0 h9
  subst hw
  interval_cases n <;> decide

/-! ## The two selections -/

/-- The hopping features: the ten-term sum read at (p, q) is column 16 · type + q of the interpolated row. -/
theorem feat_select (v7 : IVec S2048 32) (v20 : FVec Ideal S2048x1 .f32) (v41 v45 : FVec Ideal S2048x320 .f32)
    (p : Fin 2048) (q : Fin 16) (hb : 0 ≤ (v7 (ix1 p)).toInt ∧ (v7 (ix1 p)).toInt ≤ 9) :
    Gen.k0_pay3 v7 (Gen.k0_pay13 v20 v41 v45)
        (Gen.k0_pay25 v7 (Gen.k0_pay13 v20 v41 v45) (Gen.k0_pay19 v7 v20 v41 v45)) 8#32 (ix2 p q)
      = Gen.k0_pay13 v20 v41 v45
          (ix2 p ⟨(16 * (v7 (ix1 p)).toInt.toNat + q.val) % 320, Nat.mod_lt _ (by decide)⟩) := by
  unfold Gen.k0_pay3 Gen.k0_pay25 Gen.k0_pay19
  generalize Gen.k0_pay13 v20 v41 v45 = Y
  -- the sum of the ten products  factor_b · Y[p, 16 b + q]
  simp only [addf_apply, mulf_apply, broadcast_apply, slice2_axis1_eq, pay14_eq, pay15_eq, pay16_eq, pay18_eq,
    pay21_eq, pay22_eq, pay23_eq, pay24_eq, pay1_eq, pay2_eq, maskCol_bcast, zero_const]
  have hq := q.isLt
  -- the row's type is one of ten words: one factor is 1, nine are 0
  rcases word_cases _ hb with h | h | h | h | h | h | h | h | h | h
  all_goals
    simp [sel, h]
    refine congrArg (fun c : Fin 320 => Y (ix2 p c)) (Fin.ext ?_)
    try dsimp only
    omega

/-- The overlap features: the ten-term sum read at (p, q) is column 160 + 16 · type + q of the interpolated row. -/
theorem over_select (v7 : IVec S2048 32) (v20 : FVec Ideal S2048x1 .f32) (v41 v45 : FVec Ideal S2048x320 .f32)
    (p : Fin 2048) (q : Fin 16) (hb : 0 ≤ (v7 (ix1 p)).toInt ∧ (v7 (ix1 p)).toInt ≤ 9) :
    Gen.k0_pay4 v7 (Gen.k0_pay13 v20 v41 v45)
        (Gen.k0_pay26 v7 (Gen.k0_pay13 v20 v41 v45) (Gen.k0_pay17 v7 v20 v41 v45) (Gen.k0_pay18 (F := Ideal) v7)
          (Gen.k0_pay20 v20 v41 v45)) 8#32 (ix2 p q)
      = Gen.k0_pay13 v20 v41 v45
          (ix2 p ⟨(160 + 16 * (v7 (ix1 p)).toInt.toNat + q.val) % 320, Nat.mod_lt _ (by decide)⟩) := by
  unfold Gen.k0_pay4 Gen.k0_pay26 Gen.k0_pay17 Gen.k0_pay20
  generalize Gen.k0_pay13 v20 v41 v45 = Y
  -- the sum of the ten products  factor_b · Y[p, 160 + 16 b + q]
  simp only [addf_apply, mulf_apply, broadcast_apply, slice2_axis1_eq, pay14_eq, pay15_eq, pay16_eq, pay18_eq,
    pay21_eq, pay22_eq, pay23_eq, pay24_eq, pay1_eq, pay2_eq, maskCol_bcast, zero_const]
  have hq := q.isLt
  rcases word_cases _ hb with h | h | h | h | h | h | h | h | h | h
  all_goals
    simp [sel, h]
    refine congrArg (fun c : Fin 320 => Y (ix2 p c)) (Fin.ext ?_)
    try dsimp only
    omega

end Cert.KernelIdeal.EdgeSelect
-- ==== Proof.EdgeBody.lean ====
/-
  What the edge kernel's body leaves in its two output blocks, one element at a time.

  For edge `p` of a block and integral `q`: the position of the edge's distance on the grid gives a cell and a
  fraction; the one-hot rows of the cell and of the next grid point pick two rows of the table operand, whose two
  halves (320 columns apart) are added; the two picked rows are blended by the fraction in every one of the 320
  columns; and the ten 0/1 masks of the edge's bond type (kept inside [0, 9]) pick the sixteen columns of that bond
  type, from column 0 on for the hopping table and from column 160 on for the overlap table. The three steps are read
  at an index in their own modules; here they are joined, and the columns they name are identified with the table
  operand's layout.
-/
import proofs.«402313_j9783935500642_3_alg».proof.Proof.Gen.KernelIdeal.Frame
import proofs.«402313_j9783935500642_3_alg».proof.Proof.Spec
import proofs.«402313_j9783935500642_3_alg».proof.Proof.EdgeLerp
import proofs.«402313_j9783935500642_3_alg».proof.Proof.EdgeSelect
import Idealize.ShloMosaic.Lib.Pipeline.Value

set_option maxRecDepth 16384

noncomputable section

open Idealize.ShloMosaic Idealize.ShloMosaic.ValueIdx Cert.KernelIdeal Cert.KernelIdeal.Gen

namespace Cert.KernelIdeal.EdgeBody

open Cert.Interp

/-- The block's one rectangle starts at the origin. -/
theorem hz1 : (![0] : Fin 1 → Nat) = fun _ => 0 := funext fun a => by fin_cases a; rfl
theorem hz2 : (![0, 0] : Fin 2 → Nat) = fun _ => 0 := funext fun a => by fin_cases a <;> rfl

/-- A bond type kept inside [0, 9] lies there. -/
theorem bondW_range (e : BitVec 32) : 0 ≤ (bondW e).toInt ∧ (bondW e).toInt ≤ 9 := by
  have := clip_range 0#32 9#32 e (by decide)
  simpa [bondW] using this

/-- The hopping block: entry (p, q) is the interpolated table entry read off the operand's columns from 0 on. -/
theorem out0_3_apply (x0 : Vec Ideal S2048 .f32) (x1 : Vec Ideal S2048 .i32) (x2 : Vec Ideal S512x640 .bf16) (p : Fin 2048) (q : Fin 16) :
    Gen.out0_3 x0 x1 x2 (ix2 p q) = edgeCat (x0 (ix1 p)) (x1 (ix1 p)) x2 0 q := by
  unfold Gen.out0_3
  rw [View.canon_unit_zero hz2]
  simp only [View.ld_unit_zero (S := S2048) hz1, View.ld_unit_zero (S := S512x640) hz2]
  have hb : 0 ≤ (k0_pay5 (F := Ideal) x1 (ix1 p)).toInt ∧ (k0_pay5 (F := Ideal) x1 (ix1 p)).toInt ≤ 9 := by
    rw [EdgeLerp.pay5_apply]; exact bondW_range _
  rw [EdgeSelect.feat_select _ _ _ _ p q hb]
  rw [EdgeLerp.pay13_apply, EdgeLerp.pay8_apply, EdgeLerp.pay12_apply, EdgeLerp.pay11_apply]
  simp only [EdgeLerp.pay5_apply]
  unfold edgeCat lerpK
  have hn := bondW_range (x1 (ix1 p))
  have e1 : ∀ h, (⟨(16 * (bondW (x1 (ix1 p))).toInt.toNat + q.val) % 320, h⟩ : Fin 640) = colFin 0 (bondFin (x1 (ix1 p))) q :=
    fun h => Fin.ext (by simp only [colFin, bondFin]; omega)
  have e2 : ∀ h, (⟨320 + (16 * (bondW (x1 (ix1 p))).toInt.toNat + q.val) % 320, h⟩ : Fin 640) = colFin (320 + 0) (bondFin (x1 (ix1 p))) q :=
    fun h => Fin.ext (by simp only [colFin, bondFin]; omega)
  simp only [e1, e2]

/-- The overlap block: the same over the operand's columns from 160 on. -/
theorem out0_4_apply (x0 : Vec Ideal S2048 .f32) (x1 : Vec Ideal S2048 .i32) (x2 : Vec Ideal S512x640 .bf16) (p : Fin 2048) (q : Fin 16) :
    Gen.out0_4 x0 x1 x2 (ix2 p q) = edgeCat (x0 (ix1 p)) (x1 (ix1 p)) x2 160 q := by
  unfold Gen.out0_4
  rw [View.canon_unit_zero hz2]
  simp only [View.ld_unit_zero (S := S2048) hz1, View.ld_unit_zero (S := S512x640) hz2]
  have hb : 0 ≤ (k0_pay5 (F := Ideal) x1 (ix1 p)).toInt ∧ (k0_pay5 (F := Ideal) x1 (ix1 p)).toInt ≤ 9 := by
    rw [EdgeLerp.pay5_apply]; exact bondW_range _
  rw [EdgeSelect.over_select _ _ _ _ p q hb]
  rw [EdgeLerp.pay13_apply, EdgeLerp.pay8_apply, EdgeLerp.pay12_apply, EdgeLerp.pay11_apply]
  simp only [EdgeLerp.pay5_apply]
  unfold edgeCat lerpK
  have hn := bondW_range (x1 (ix1 p))
  have e1 : ∀ h, (⟨(160 + 16 * (bondW (x1 (ix1 p))).toInt.toNat + q.val) % 320, h⟩ : Fin 640) = colFin 160 (bondFin (x1 (ix1 p))) q :=
    fun h => Fin.ext (by simp only [colFin, bondFin]; omega)
  have e2 : ∀ h, (⟨320 + (160 + 16 * (bondW (x1 (ix1 p))).toInt.toNat + q.val) % 320, h⟩ : Fin 640) = colFin (320 + 160) (bondFin (x1 (ix1 p))) q :=
    fun h => Fin.ext (by simp only [colFin, bondFin]; omega)
  simp only [e1, e2]

end Cert.KernelIdeal.EdgeBody
end
-- ==== Proof.EdgeArr.lean ====
/-
  The edge kernel's two output arrays, element by element, from what each grid point writes back.

  The region runs over 977 grid points. Point `t` reads rows 2048·t … 2048·t + 2047 of the distances and of the bond
  types and the whole table operand, and writes back rows 2048·t … 2048·t + 2047 (all 16 columns) of each output.
  One element of what the body leaves in an output's buffer is the interpolated entry of that edge; so each write-back
  is a block of ONE function of the arrays the region finds, the blocks of the 977 points cover all 2000896 = 977 · 2048
  rows, and the array after the region is that function.
-/
import proofs.«402313_j9783935500642_3_alg».proof.Proof.Gen.KernelIdeal.Frame
import proofs.«402313_j9783935500642_3_alg».proof.Proof.Spec
import proofs.«402313_j9783935500642_3_alg».proof.Proof.EdgeBody
import Idealize.ShloMosaic.Lib.Pipeline.Value
import Idealize.ShloMosaic.Lib.ValueIdx

set_option maxRecDepth 16384

noncomputable section

namespace Cert.KernelIdeal.EdgeArr

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Where each window's block sits -/

/-- The block index of every window at every grid point: the distances, the bond types and the two outputs move one
    block of 2048 rows per point (block index `t` at point `t`); the table operand is one block, the whole array, at every point;
    the outputs' 16 columns are one block. -/
theorem idx_facts : ∀ t : Fin cfg0.N,
    win0_0.index t (0 : Fin 1) = t.val ∧ win0_1.index t (0 : Fin 1) = t.val
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What an output array ends holding, as one function of the arrays the region finds: row `R`, column `q` is the
    interpolated entry for the distance and bond type of edge `R`, read off the table operand from column `off`. -/
abbrev G (off : Nat) (c : Dev nD) : S2000896x16.Idx → EReal :=
  fun j => Cert.Interp.edgeCat (V c main_v0 (ix1 (j 0))) (V c main_v1 (ix1 (j 0))) (V c main_v12) off (j 1)

/-! ## The input blocks, read off their arrays -/

/-- Entry `p` of the distances' block at point `t` is entry `2048·t + p` of the array. -/
theorem read_dist (c : Dev nD) (t : Fin cfg0.N) (p : Fin 2048) (P : Fin 2000896) (hP : P.val = t.val * 2048 + p.val) :
    (iblk0 V c 0 t : Vec Ideal S2048 .f32) (ix1 p) = V c main_v0 (ix1 P) := by
  obtain ⟨e0, -⟩ := idx_facts t
  show V c main_v0 (((cfg0.win 0).blk t).view.emb (ix1 p)) = V c main_v0 (ix1 P)
  congr 1
  funext a
  apply Fin.ext
  match a with
  | ⟨0, _⟩ => show win0_0.index t (0 : Fin 1) * 2048 + 1 * p.val = P.val; omega

/-- Entry `p` of the bond types' block at point `t` is entry `2048·t + p` of the array. -/
theorem read_type (c : Dev nD) (t : Fin cfg0.N) (p : Fin 2048) (P : Fin 2000896) (hP : P.val = t.val * 2048 + p.val) :
    (iblk0 V c 1 t : Vec Ideal S2048 .i32) (ix1 p) = V c main_v1 (ix1 P) := by
  obtain ⟨-, e1, -⟩ := idx_facts t
  show V c main_v1 (((cfg0.win 1).blk t).view.emb (ix1 p)) = V c main_v1 (ix1 P)
  congr 1
  funext a
  apply Fin.ext
  match a with
  | ⟨0, _⟩ => show win0_1.index t (0 : Fin 1) * 2048 + 1 * p.val = P.val; omega

/-- The table operand's block at every point is the whole array. -/
theorem read_tab (c : Dev nD) (t : Fin cfg0.N) :
    (iblk0 V c 2 t : Vec Ideal S512x640 .bf16) = V c main_v12 := by
  obtain ⟨-, -, e2, e3, -⟩ := idx_facts t
  funext j
  show V c main_v12 (((cfg0.win 2).blk t).view.emb j) = V c main_v12 j
  congr 1
  funext a
  apply Fin.ext
  match a with
  | ⟨0, _⟩ => show win0_2.index t (0 : Fin 2) * 512 + 1 * (j 0).val = (j 0).val; omega
  | ⟨1, _⟩ => show win0_2.index t (1 : Fin 2) * 640 + 1 * (j 1).val = (j 1).val; omega

/-! ## One element of what a point leaves in each output's buffer -/

/-- Hopping: element (p, q) of the buffer after the body at point `t` is the interpolated entry of edge `2048·t + p`. -/
theorem point3 (c : Dev nD) (t : Fin cfg0.N) (p : Fin 2048) (q : Fin 16) (P : Fin 2000896) (hP : P.val = t.val * 2048 + p.val) :
    out0_3 (iblk0 V c 0 t) (iblk0 V c 1 t) (iblk0 V c 2 t) (ix2 p q)
      = Cert.Interp.edgeCat (V c main_v0 (ix1 P)) (V c main_v1 (ix1 P)) (V c main_v12) 0 q := by
  refine (EdgeBody.out0_3_apply (iblk0 V c 0 t) (iblk0 V c 1 t) (iblk0 V c 2 t) p q).trans ?_
  rw [read_dist V c t p P hP, read_type V c t p P hP, read_tab V c t]

/-- Overlap: the same, read from column 160 of the table operand. -/
theorem point4 (c : Dev nD) (t : Fin cfg0.N) (p : Fin 2048) (q : Fin 16) (P : Fin 2000896) (hP : P.val = t.val * 2048 + p.val) :
    out0_4 (iblk0 V c 0 t) (iblk0 V c 1 t) (iblk0 V c 2 t) (ix2 p q)
      = Cert.Interp.edgeCat (V c main_v0 (ix1 P)) (V c main_v1 (ix1 P)) (V c main_v12) 160 q := by
  refine (EdgeBody.out0_4_apply (iblk0 V c 0 t) (iblk0 V c 1 t) (iblk0 V c 2 t) p q).trans ?_
  rw [read_dist V c t p P hP, read_type V c t p P hP, read_tab V c t]

/-! ## From the blocks to the arrays: the hopping output -/

/-- What grid point `t` writes back to the hopping array is block `t` of its whole-array function: the element at
    (p, q) of the block is the element at (2048·t + p, q) of the array. -/
theorem flushed3_eq (c : Dev nD) (t : Fin cfg0.N) :
    (dat0 V c).flushed 3 t = ((cfg0.win 3).blk t).view.read (Elt Ideal) (G V 0 c) := by
  show (cfg0.win 3).cut (grid0.coords t) ((dat0 V c).after 3 t) = _
  rw [after0_3]
  obtain ⟨-, -, -, -, e3a, e3b, e4a, e4b⟩ := idx_facts t
  have ht : t.val < 977 := lt_of_lt_of_eq t.isLt N_0
  funext y
  obtain ⟨p, q, rfl⟩ : ∃ (p : Fin 2048) (q : Fin 16), y = ix2 p q := ⟨y 0, y 1, eq_ix2 (n0 := 2048) (n1 := 16) y⟩
  -- the block's coordinate in the array: block index × block size + 1 × the coordinate inside the block
  have hE : ((cfg0.win 3).blk t).view.emb (ix2 p q) = (ix2 (⟨t.val * 2048 + p.val, by have := p.isLt; omega⟩ : Fin 2000896) q : S2000896x16.Idx) := by
    funext a
    apply Fin.ext
    match a with
    | ⟨0, _⟩ => show win0_3.index t (0 : Fin 2) * 2048 + 1 * p.val = t.val * 2048 + p.val; omega
    | ⟨1, _⟩ => show win0_3.index t (1 : Fin 2) * 16 + 1 * q.val = q.val; omega
  show out0_3 (iblk0 V c 0 t) (iblk0 V c 1 t) (iblk0 V c 2 t) (ix2 p q) = G V 0 c (((cfg0.win 3).blk t).view.emb (ix2 p q))
  rw [hE]
  exact point3 V c t p q _ rfl

/-- An index of the hopping array lies in point `t`'s block iff each coordinate lies in the block's range on its axis. -/
theorem mem_blk3 (t : Fin cfg0.N) (i : S2000896x16.Idx) :
    i ∈ ((cfg0.win 3).blk t).view.set ↔ ∀ a : Fin 2, win0_3.index t a * S2048x16.size a ≤ (i a).val ∧ (i a).val < win0_3.index t a * S2048x16.size a + S2048x16.size a := by
  show i ∈ ((View.whole main_v13_0).slice (win0_3.rect t)).set ↔ _
  rw [View.set_slice_whole, Rect.mem_set_unit]
  exact Iff.rfl

/-- Every index of the hopping array is written back by some point: row `R` by point `R / 2048` (2000896 = 977 · 2048 rows,
    977 points, every block whole), all 16 columns by every point. -/
theorem cover3 (i : S2000896x16.Idx) : ∃ t : Fin cfg0.N, (cfg0.win 3).flush t = true ∧ i ∈ ((cfg0.win 3).blk t).view.set := by
  have h0 : (i 0).val < 2000896 := (i 0).isLt
  have h1 : (i 1).val < 16 := (i 1).isLt
  have hN : cfg0.N = 977 := N_0
  have hlt : (i 0).val / 2048 < cfg0.N := by rw [hN]; omega
  refine ⟨⟨(i 0).val / 2048, hlt⟩, flush0_3 _, ?_⟩
  rw [mem_blk3]
  obtain ⟨-, -, -, -, e3a, e3b, e4a, e4b⟩ := idx_facts ⟨(i 0).val / 2048, hlt⟩
  intro a
  match a with
  | ⟨0, _⟩ =>
    show win0_3.index ⟨(i 0).val / 2048, hlt⟩ (0 : Fin 2) * 2048 ≤ (i 0).val ∧ (i 0).val < win0_3.index ⟨(i 0).val / 2048, hlt⟩ (0 : Fin 2) * 2048 + 2048
    rw [e3a]; show (i 0).val / 2048 * 2048 ≤ (i 0).val ∧ (i 0).val < (i 0).val / 2048 * 2048 + 2048; omega
  | ⟨1, _⟩ =>
    show win0_3.index ⟨(i 0).val / 2048, hlt⟩ (1 : Fin 2) * 16 ≤ (i 1).val ∧ (i 1).val < win0_3.index ⟨(i 0).val / 2048, hlt⟩ (1 : Fin 2) * 16 + 16
    rw [e3b]; omega

/-- The hopping array after the last grid point is its whole-array function. -/
theorem final3 (c : Dev nD) : (dat0 V c).arrAt 3 cfg0.N = G V 0 c :=
  (dat0 V c).arrAt_eq_of_cover 3 (G V 0 c) (fun t _ => flushed3_eq V c t) cover3

/-! ## From the blocks to the arrays: the overlap output -/

/-- What grid point `t` writes back to the overlap array is block `t` of its whole-array function: the element at
    (p, q) of the block is the element at (2048·t + p, q) of the array. -/
theorem flushed4_eq (c : Dev nD) (t : Fin cfg0.N) :
    (dat0 V c).flushed 4 t = ((cfg0.win 4).blk t).view.read (Elt Ideal) (G V 160 c) := by
  show (cfg0.win 4).cut (grid0.coords t) ((dat0 V c).after 4 t) = _
  rw [after0_4]
  obtain ⟨-, -, -, -, e3a, e3b, e4a, e4b⟩ := idx_facts t
  have ht : t.val < 977 := lt_of_lt_of_eq t.isLt N_0
  funext y
  obtain ⟨p, q, rfl⟩ : ∃ (p : Fin 2048) (q : Fin 16), y = ix2 p q := ⟨y 0, y 1, eq_ix2 (n0 := 2048) (n1 := 16) y⟩
  -- the block's coordinate in the array: block index × block size + 1 × the coordinate inside the block
  have hE : ((cfg0.win 4).blk t).view.emb (ix2 p q) = (ix2 (⟨t.val * 2048 + p.val, by have := p.isLt; omega⟩ : Fin 2000896) q : S2000896x16.Idx) := by
    funext a
    apply Fin.ext
    match a with
    | ⟨0, _⟩ => show win0_4.index t (0 : Fin 2) * 2048 + 1 * p.val = t.val * 2048 + p.val; omega
    | ⟨1, _⟩ => show win0_4.index t (1 : Fin 2) * 16 + 1 * q.val = q.val; omega
  show out0_4 (iblk0 V c 0 t) (iblk0 V c 1 t) (iblk0 V c 2 t) (ix2 p q) = G V 160 c (((cfg0.win 4).blk t).view.emb (ix2 p q))
  rw [hE]
  exact point4 V c t p q _ rfl

/-- An index of the overlap array lies in point `t`'s block iff each coordinate lies in the block's range on its axis. -/
theorem mem_blk4 (t : Fin cfg0.N) (i : S2000896x16.Idx) :
    i ∈ ((cfg0.win 4).blk t).view.set ↔ ∀ a : Fin 2, win0_4.index t a * S2048x16.size a ≤ (i a).val ∧ (i a).val < win0_4.index t a * S2048x16.size a + S2048x16.size a := by
  show i ∈ ((View.whole main_v13_1).slice (win0_4.rect t)).set ↔ _
  rw [View.set_slice_whole, Rect.mem_set_unit]
  exact Iff.rfl

/-- Every index of the overlap array is written back by some point: row `R` by point `R / 2048` (2000896 = 977 · 2048 rows,
    977 points, every block whole), all 16 columns by every point. -/
theorem cover4 (i : S2000896x16.Idx) : ∃ t : Fin cfg0.N, (cfg0.win 4).flush t = true ∧ i ∈ ((cfg0.win 4).blk t).view.set := by
  have h0 : (i 0).val < 2000896 := (i 0).isLt
  have h1 : (i 1).val < 16 := (i 1).isLt
  have hN : cfg0.N = 977 := N_0
  have hlt : (i 0).val / 2048 < cfg0.N := by rw [hN]; omega
  refine ⟨⟨(i 0).val / 2048, hlt⟩, flush0_4 _, ?_⟩
  rw [mem_blk4]
  obtain ⟨-, -, -, -, e3a, e3b, e4a, e4b⟩ := idx_facts ⟨(i 0).val / 2048, hlt⟩
  intro a
  match a with
  | ⟨0, _⟩ =>
    show win0_4.index ⟨(i 0).val / 2048, hlt⟩ (0 : Fin 2) * 2048 ≤ (i 0).val ∧ (i 0).val < win0_4.index ⟨(i 0).val / 2048, hlt⟩ (0 : Fin 2) * 2048 + 2048
    rw [e4a]; show (i 0).val / 2048 * 2048 ≤ (i 0).val ∧ (i 0).val < (i 0).val / 2048 * 2048 + 2048; omega
  | ⟨1, _⟩ =>
    show win0_4.index ⟨(i 0).val / 2048, hlt⟩ (1 : Fin 2) * 16 ≤ (i 1).val ∧ (i 1).val < win0_4.index ⟨(i 0).val / 2048, hlt⟩ (1 : Fin 2) * 16 + 16
    rw [e4b]; omega

/-- The overlap array after the last grid point is its whole-array function. -/
theorem final4 (c : Dev nD) : (dat0 V c).arrAt 4 cfg0.N = G V 160 c :=
  (dat0 V c).arrAt_eq_of_cover 4 (G V 160 c) (fun t _ => flushed4_eq V c t) cover4

/-! ## The two arrays, element by element -/

/-- The hopping output after the region: row `P`, column `q` is the interpolated entry of edge `P`, read off the table
    operand from column 0. -/
theorem feat_array (c : Dev nD) (P : Fin 2000896) (q : Fin 16) :
    (Gen.dat0 V c).arrAt 3 cfg0.N (ix2 P q) = Cert.Interp.edgeCat (V c main_v0 (ix1 P)) (V c main_v1 (ix1 P)) (V c main_v12) 0 q :=
  congrFun (final3 V c) (ix2 P q)

/-- The overlap output after the region: the same, from column 160. -/
theorem over_array (c : Dev nD) (P : Fin 2000896) (q : Fin 16) :
    (Gen.dat0 V c).arrAt 4 cfg0.N (ix2 P q) = Cert.Interp.edgeCat (V c main_v0 (ix1 P)) (V c main_v1 (ix1 P)) (V c main_v12) 160 q :=
  congrFun (final4 V c) (ix2 P q)

end Cert.KernelIdeal.EdgeArr

end
-- ==== Proof.NodeValue.lean ====
/-
  The node kernel, element by element, on the extended reals.

  For each atom the kernel adds up, over the four rows `c` of the 4 × 4 onsite table, the row scaled by the factor
  "the atom's type is `c`" — the comparison's bit read as the number one or zero. Zero times any extended real is zero
  and zero plus any extended real is that number, so for an atom type in `[0, 3]` the sum is exactly the table's row of
  that type, whatever the table holds: no finiteness is needed. The first half of this module proves that for one
  element `(p, q)` of a block of 8192 atoms.

  The second half goes from the blocks to the array. The grid has 62 points; point `t` reads atom types
  `8192 t … 8192 t + 8191` and the whole table and writes rows `8192 t … 8192 t + 8191` of the result, every block whole.
  Each written block is therefore the same block of ONE function of the two arrays (`rows`), row `R` lies in the block
  of point `R / 8192`, and so after the last point the result array is that function.
-/
import proofs.«402313_j9783935500642_3_alg».proof.Proof.Gen.KernelIdeal.Frame
import proofs.«402313_j9783935500642_3_alg».proof.Proof.Spec
import Idealize.ShloMosaic.Lib.Pipeline.Value
import Idealize.ShloMosaic.Lib.ValueLayout
import Idealize.ShloMosaic.Lib.ValueIdx
import Idealize.ShloMosaic.Lib.StableHlo.Predicate

set_option maxRecDepth 16384

noncomputable section

namespace Cert.KernelIdeal.NodeValue

open Idealize.ShloMosaic Idealize.ShloMosaic.TcCoe Idealize.ShloMosaic.ValueIdx
open Idealize.ShloMosaic.Pipeline (Dat)
open Cert.KernelIdeal Cert.KernelIdeal.Gen

/-! ## One element of the node kernel's block

For an atom of type `a` the body adds up, over the four rows `c` of the onsite table, the row scaled by the
factor "`a` is `c`" (one or zero). With `a` in `[0, 3]` exactly one factor is one, so the sum is row `a`. -/

theorem zero1 : (![0] : Fin 1 → Nat) = fun _ => 0 := funext fun a => by fin_cases a; rfl
theorem zero2 : (![0, 0] : Fin 2 → Nat) = fun _ => 0 := funext fun a => by fin_cases a <;> rfl

/-- The factor "`a` is `c`": the comparison's bit, widened and converted, is one when the words agree and zero otherwise. -/
theorem factor_eq (a c : BitVec 32) :
    (FloatOps.sitofp (F := Ideal) .f32 ((IntOp.cmpi .eq a c).setWidth 32) : EReal) = if a = c then 1 else 0 := by
  by_cases h : a = c
  · rw [if_pos h, StableHlo.Predicate.cmpi_eq_iff.mpr h]
    show ((((1#1 : BitVec 1).setWidth 32).toInt : ℝ) : EReal) = 1
    rw [show ((1#1 : BitVec 1).setWidth 32).toInt = 1 from by decide]
    norm_num
  · rw [if_neg h, eq_zero_of_ne_one (fun e => h (StableHlo.Predicate.cmpi_eq_iff.mp e))]
    show ((((0#1 : BitVec 1).setWidth 32).toInt : ℝ) : EReal) = 0
    rw [show ((0#1 : BitVec 1).setWidth 32).toInt = 0 from by decide]
    norm_num

/-- A comparison of two vectors of words, at an index, compares the two words there. -/
theorem cmpi_apply {s : Shape} {w : Nat} (pr : CmpIPredicate) (a b : IVec s w) (i : s.Idx) :
    cmpi pr a b i = IntOp.cmpi pr (a i) (b i) := rfl

/-- A per-atom quantity spread over the four columns reads, at `(p, q)`, the quantity of atom `p`. -/
theorem column_apply {α : Type} (m : S8192.Idx → α) (h1 : S8192.ShapeCasts S8192x1) (h2 : S8192x1.Broadcasts S8192x4)
    (p : Fin 8192) (q : Fin 4) : broadcastTo S8192x4 (shapeCast S8192x1 m h1) h2 (ix2 p q) = m (ix1 p) := by
  refine (broadcastTo_apply _ h2 (ix2 p q) (ix2 p (0 : Fin 1)) fun a => ?_).trans ?_
  · match a with
    | ⟨0, _⟩ => rfl
    | ⟨1, _⟩ => rfl
  · exact shapeCast_apply m h1 _ _ (by
      rw [Shape.rowMajor_val_two, Shape.rowMajor_val_one]
      show p.val = p.val * 1 + 0
      omega)

/-- Row `c` of the table, cut out, flattened, restored and spread over the atoms, reads at `(p, q)` the table at `(c, q)`. -/
theorem row_apply {α : Type} (x : S4x4.Idx → α) (off : Fin 2 → Nat) (c : Fin 4) (e0 : off 0 = c.val) (e1 : off 1 = 0)
    (hs : S4x4.Slices off S1x4) (h1 : S1x4.ShapeCasts S4) (h2 : S4.ShapeCasts S1x4) (hb : S1x4.Broadcasts S8192x4)
    (p : Fin 8192) (q : Fin 4) :
    broadcastTo S8192x4 (shapeCast S1x4 (shapeCast S4 (extractStridedSlice S1x4 off x hs) h1) h2) hb (ix2 p q) = x (ix2 c q) := by
  rw [shapeCast_shapeCast, broadcastTo_1b_ab_apply]
  refine extractStridedSlice_apply off x hs _ _ fun a => ?_
  match a with
  | ⟨0, _⟩ => show c.val = off 0 + 0; omega
  | ⟨1, _⟩ => show q.val = off 1 + q.val; omega

/-- A word whose signed value is in `[0, 3]` is one of the four words `0, 1, 2, 3`. -/
theorem word_cases (a : BitVec 32) (ha : 0 ≤ a.toInt ∧ a.toInt < 4) : a = 0#32 ∨ a = 1#32 ∨ a = 2#32 ∨ a = 3#32 := by
  have h0 : (0#32 : BitVec 32).toInt = 0 := by decide
  have h1 : (1#32 : BitVec 32).toInt = 1 := by decide
  have h2 : (2#32 : BitVec 32).toInt = 2 := by decide
  have h3 : (3#32 : BitVec 32).toInt = 3 := by decide
  have : a.toInt = 0 ∨ a.toInt = 1 ∨ a.toInt = 2 ∨ a.toInt = 3 := by omega
  rcases this with h | h | h | h
  · exact Or.inl (BitVec.eq_of_toInt_eq (h.trans h0.symm))
  · exact Or.inr (Or.inl (BitVec.eq_of_toInt_eq (h.trans h1.symm)))
  · exact Or.inr (Or.inr (Or.inl (BitVec.eq_of_toInt_eq (h.trans h2.symm))))
  · exact Or.inr (Or.inr (Or.inr (BitVec.eq_of_toInt_eq (h.trans h3.symm))))

/-- THE BLOCK AT `(p, q)`: the onsite table's row of atom `p`'s type, column `q`. -/
theorem out1_2_apply (x0 : Vec Ideal S8192 .i32) (x1 : Vec Ideal S4x4 .f32) (p : Fin 8192) (q : Fin 4)
    (ha : 0 ≤ (x0 (ix1 p)).toInt ∧ (x0 (ix1 p)).toInt < 4) :
    Gen.out1_2 x0 x1 (ix2 p q) = x1 (ix2 (Interp.rowFin (x0 (ix1 p))) q) := by
  unfold Gen.out1_2
  rw [View.canon_unit_zero zero2]
  simp only [View.ld_unit_zero (S := S8192) zero1, View.ld_unit_zero (S := S4x4) zero2]
  unfold Gen.k1_pay1 Gen.k1_pay3 Gen.k1_pay4 Gen.k1_pay2
  simp only [addf_apply, mulf_apply, broadcast_apply, column_apply, shapeCast_self]
  rw [row_apply x1 ![0, 0] 0 rfl rfl, row_apply x1 ![1, 0] 1 rfl rfl, row_apply x1 ![2, 0] 2 rfl rfl,
    row_apply x1 ![3, 0] 3 rfl rfl]
  simp only [sitofp_apply, extui_apply, cmpi_apply, broadcast_apply, factor_eq]
  rw [show (FloatOps.ofBits (F := Ideal) .f32 0#32 : EReal) = 0 from Ideal.ofBits_zero_f32]
  generalize x0 (ix1 p) = a at ha ⊢
  rcases word_cases a ha with rfl | rfl | rfl | rfl
  · rw [if_pos rfl, if_neg (by decide), if_neg (by decide), if_neg (by decide), show Interp.rowFin 0#32 = 0 from rfl]
    simp only [zero_mul, one_mul, zero_add, add_zero]
  · rw [if_neg (by decide), if_pos rfl, if_neg (by decide), if_neg (by decide), show Interp.rowFin 1#32 = 1 from rfl]
    simp only [zero_mul, one_mul, zero_add, add_zero]
  · rw [if_neg (by decide), if_neg (by decide), if_pos rfl, if_neg (by decide), show Interp.rowFin 2#32 = 2 from rfl]
    simp only [zero_mul, one_mul, zero_add, add_zero]
  · rw [if_neg (by decide), if_neg (by decide), if_neg (by decide), if_pos rfl, show Interp.rowFin 3#32 = 3 from rfl]
    simp only [zero_mul, one_mul, zero_add, add_zero]

/-! ## From the blocks to the array

The node kernel's grid has 62 points; point `t` reads atom types `8192 t … 8192 t + 8191` and the whole onsite table,
and writes rows `8192 t … 8192 t + 8191` of the result. The 62 blocks tile the 507904 rows. -/

variable (V : (c : Dev nD) → (b : Ref sig .tc) → Buf (Elt Ideal) ((c : Thread nD τ).loc b)) (c : Dev nD)

/-- The result array as ONE function of the two arrays the region finds: row `P` is the onsite table's row of atom `P`'s type. -/
def rows : S507904x4.Idx → EReal := fun j =>
  (V c main_arg5 : S4x4.Idx → EReal) (ix2 (Interp.rowFin ((V c main_v2 : S507904.Idx → BitVec 32) (ix1 (j 0)))) (j 1))

/-- The printed index maps, decided over the grid: the atom-type block and the result block are block `t`, the table's is block 0. -/
theorem grid_facts : ∀ t : Fin cfg1.N, win1_0.index t (0 : Fin 1) = t.val
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The atom-type block at point `t` is entries `8192 t …` of the atom-type array. -/
theorem types_block (t : Fin cfg1.N) (p : Fin 8192) (P : Fin 507904) (hP : P.val = t.val * 8192 + p.val) :
    (Gen.iblk1 V c 0 t : Vec Ideal S8192 .i32) (ix1 p) = (V c main_v2 : S507904.Idx → BitVec 32) (ix1 P) := by
  obtain ⟨e0, -⟩ := grid_facts t
  unfold Gen.iblk1
  rw [View.read_apply]
  show V c main_v2 _ = V c main_v2 _
  congr 1
  funext a
  apply Fin.ext
  match a with
  | ⟨0, _⟩ => show win1_0.index t (0 : Fin 1) * 8192 + 1 * p.val = P.val; rw [e0, hP]; omega

/-- The table block at every point is the whole onsite table. -/
theorem table_block (t : Fin cfg1.N) (j : S4x4.Idx) :
    (Gen.iblk1 V c 1 t : Vec Ideal S4x4 .f32) j = (V c main_arg5 : S4x4.Idx → EReal) j := by
  obtain ⟨-, e0, e1, -⟩ := grid_facts t
  unfold Gen.iblk1
  rw [View.read_apply]
  show V c main_arg5 _ = V c main_arg5 _
  congr 1
  funext a
  apply Fin.ext
  match a with
  | ⟨0, _⟩ => show win1_1.index t (0 : Fin 2) * 4 + 1 * (j 0).val = (j 0).val; rw [e0]; omega
  | ⟨1, _⟩ => show win1_1.index t (1 : Fin 2) * 4 + 1 * (j 1).val = (j 1).val; rw [e1]; omega

/-- WHAT POINT `t` WRITES BACK is block `t` of `rows`. -/
theorem flushed_eq (hV : ∀ P : Fin 507904, 0 ≤ (V c main_v2 (ix1 P)).toInt ∧ (V c main_v2 (ix1 P)).toInt < 4)
    (t : Fin cfg1.N) :
    (Gen.dat1 V c).flushed 2 t = ((cfg1.win 2).blk t).view.read (Elt Ideal) (rows V c) := by
  show (cfg1.win 2).cut (grid1.coords t) ((Gen.dat1 V c).after 2 t) = _
  rw [Gen.after1_2]
  obtain ⟨-, -, -, e0, e1⟩ := grid_facts t
  have ht : t.val < 62 := lt_of_lt_of_eq t.isLt Gen.N_1
  funext j
  obtain ⟨p, q, rfl⟩ : ∃ (p : Fin 8192) (q : Fin 4), j = ix2 p q := ⟨j 0, j 1, eq_ix2 j⟩
  show Gen.out1_2 (Gen.iblk1 V c 0 t) (Gen.iblk1 V c 1 t) (ix2 p q) = rows V c (((cfg1.win 2).blk t).view.emb (ix2 p q))
  have hb : t.val * 8192 + p.val < 507904 := by have := p.isLt; omega
  have hP : (⟨t.val * 8192 + p.val, hb⟩ : Fin 507904).val = t.val * 8192 + p.val := rfl
  rw [out1_2_apply (Gen.iblk1 V c 0 t) (Gen.iblk1 V c 1 t) p q (by rw [types_block V c t p _ hP]; exact hV _),
    types_block V c t p _ hP, table_block]
  have h0 : ((((cfg1.win 2).blk t).view.emb (ix2 p q)) 0 : Fin 507904) = ⟨t.val * 8192 + p.val, hb⟩ :=
    Fin.ext (by show win1_2.index t (0 : Fin 2) * 8192 + 1 * p.val = t.val * 8192 + p.val; rw [e0]; omega)
  have h1 : ((((cfg1.win 2).blk t).view.emb (ix2 p q)) 1 : Fin 4) = q :=
    Fin.ext (by show win1_2.index t (1 : Fin 2) * 4 + 1 * q.val = q.val; rw [e1]; omega)
  unfold rows
  rw [h0, h1]
  rfl

/-- An index of the result array is in point `t`'s block iff each coordinate is in the block's range on its axis. -/
theorem mem_block (t : Fin cfg1.N) (i : S507904x4.Idx) :
    i ∈ ((cfg1.win 2).blk t).view.set ↔ ∀ a : Fin 2, win1_2.index t a * S8192x4.size a ≤ (i a).val ∧ (i a).val < win1_2.index t a * S8192x4.size a + S8192x4.size a := by
  show i ∈ ((View.whole main_v16).slice (win1_2.rect t)).set ↔ _
  rw [View.set_slice_whole, Rect.mem_set_unit]
  exact Iff.rfl

/-- Every row of the result is in some point's block: row `R` in the block of point `R / 8192`. -/
theorem covered (i : S507904x4.Idx) : ∃ t : Fin cfg1.N, (cfg1.win 2).flush t = true ∧ i ∈ ((cfg1.win 2).blk t).view.set := by
  have hi0 : (i 0).val < 507904 := (i 0).isLt
  have hi1 : (i 1).val < 4 := (i 1).isLt
  have hN : cfg1.N = 62 := Gen.N_1
  have hlt : (i 0).val / 8192 < cfg1.N := by rw [hN]; omega
  obtain ⟨-, -, -, e0, e1⟩ := grid_facts ⟨(i 0).val / 8192, hlt⟩
  refine ⟨⟨(i 0).val / 8192, hlt⟩, Gen.flush1_2 _, ?_⟩
  rw [mem_block]
  intro a
  match a with
  | ⟨0, _⟩ =>
    show win1_2.index ⟨(i 0).val / 8192, hlt⟩ (0 : Fin 2) * 8192 ≤ (i 0).val ∧ (i 0).val < win1_2.index ⟨(i 0).val / 8192, hlt⟩ (0 : Fin 2) * 8192 + 8192
    rw [e0]
    show (i 0).val / 8192 * 8192 ≤ (i 0).val ∧ (i 0).val < (i 0).val / 8192 * 8192 + 8192
    omega
  | ⟨1, _⟩ =>
    show win1_2.index ⟨(i 0).val / 8192, hlt⟩ (1 : Fin 2) * 4 ≤ (i 1).val ∧ (i 1).val < win1_2.index ⟨(i 0).val / 8192, hlt⟩ (1 : Fin 2) * 4 + 4
    rw [e1]
    omega

/-- THE RESULT ARRAY after the node kernel's run: row `P` is the onsite table's row of atom `P`'s type. -/
theorem node_array (hV : ∀ P : Fin 507904, 0 ≤ (V c main_v2 (ix1 P)).toInt ∧ (V c main_v2 (ix1 P)).toInt < 4)
    (P : Fin 507904) (q : Fin 4) :
    (Gen.dat1 V c).arrAt 2 cfg1.N (ix2 P q)
      = V c main_arg5 (ix2 (Interp.rowFin (V c main_v2 (ix1 P))) q) :=
  congrFun ((Gen.dat1 V c).arrAt_eq_of_cover 2 (rows V c) (fun t _ => flushed_eq V c hV t) covered) (ix2 P q)

/-- The same, as one equation of arrays. -/
theorem node_array_rows (hV : ∀ P : Fin 507904, 0 ≤ (V c main_v2 (ix1 P)).toInt ∧ (V c main_v2 (ix1 P)).toInt < 4) :
    (Gen.dat1 V c).arrAt 2 cfg1.N = rows V c :=
  (Gen.dat1 V c).arrAt_eq_of_cover 2 (rows V c) (fun t _ => flushed_eq V c hV t) covered

end Cert.KernelIdeal.NodeValue

end
-- ==== Proof.CatTable.lean ====
/-
  The table operand of the edge kernel read one entry at a time, on the extended reals.

  The operand has 512 rows (grid points) and 640 columns. Columns 0–319 hold the two tables side by side, each laid
  out with the grid point leading and the pair (bond, integral) flattened to 16·b + k: the hopping table in columns
  0–159 and the overlap table in columns 160–319. Columns 320–639 hold, entry by entry, what is left of that array
  after its leading part is taken away. Over the extended reals a change of format is the identity, so the leading
  part is the array itself and the remainder is x − x, which is 0 for every finite x (and only for those: ⊤ − ⊤ is
  not 0). Hence, for finite tables, the two columns 320 apart in a row add up to the table's entry:

    operand [g, off + 16·b + k] + operand [g, 320 + off + 16·b + k] = table [b, k, g],

  with off = 0 for the hopping table and off = 160 for the overlap table. The steps: a two-piece concatenation along
  the columns reads the left piece below its width and the right piece, the width less, from there on; a reshape
  keeps the row-major position, (g·10 + b)·16 + k = g·160 + (16·b + k); the transposition sends axes
  (grid, bond, integral) back to (bond, integral, grid).
-/
import proofs.«402313_j9783935500642_3_alg».proof.Proof.CatDef
import proofs.«402313_j9783935500642_3_alg».proof.Proof.Spec
import Idealize.ShloMosaic.Lib.Pipeline.Value
import Idealize.ShloMosaic.Lib.ValueLayout
import Idealize.ShloMosaic.Lib.ValueIdx

noncomputable section

namespace Cert.KernelIdeal.CatTable

open Idealize.ShloMosaic Idealize.ShloMosaic.ValueIdx Cert.KernelIdeal

variable [Facts]
open Facts₀

/-- A table laid out with the grid point leading and the pair (bond, integral) flattened reads, at row g and
    column 16·b + k, the table's entry for bond b, integral k and grid point g: the reshape keeps the row-major
    position, (g·10 + b)·16 + k = g·160 + (16·b + k), and the transposition sends axes (grid, bond, integral)
    back to (bond, integral, grid). -/
theorem flat_apply (x : FVec Ideal S10x16x512 .f32) (g : Fin 512) (c : Fin 160) (b : Fin 10) (k : Fin 16)
    (hc : c.val = 16 * b.val + k.val) : Cat.flat x (ix2 g c) = x (ix3 b k g) := by
  unfold Cat.flat
  rw [shapeCast_apply _ _ (ix2 g c) (ix3 g b k) (by
    rw [Shape.rowMajor_val_three, Shape.rowMajor_val_two]
    show (g.val * 10 + b.val) * 16 + k.val = g.val * 160 + c.val
    omega)]
  exact transpose_apply [2, 0, 1] x _ (ix3 g b k) (ix3 b k g) (fun a => by
    match a with
    | ⟨0, _⟩ => rfl
    | ⟨1, _⟩ => rfl
    | ⟨2, _⟩ => rfl)

/-- Columns 0–159 of the two tables side by side are the hopping table's. -/
theorem both_left (h o : FVec Ideal S10x16x512 .f32) (g : Fin 512) (c : Fin 320) (b : Fin 10) (k : Fin 16)
    (hc : c.val = 16 * b.val + k.val) : Cat.both h o (ix2 g c) = h (ix3 b k g) := by
  unfold Cat.both
  have hlt : c.val < 160 := by have := b.isLt; have := k.isLt; omega
  rw [concatenate_pair_apply_left 1 (Cat.flat h) (Cat.flat o) _ (ix2 g c) rfl (ix2 g ⟨c.val, hlt⟩) (fun a => by
    match a with
    | ⟨0, _⟩ => rfl
    | ⟨1, _⟩ => rfl)]
  exact flat_apply h g ⟨c.val, hlt⟩ b k hc

/-- Columns 160–319 are the overlap table's, 160 columns less. -/
theorem both_right (h o : FVec Ideal S10x16x512 .f32) (g : Fin 512) (c : Fin 320) (b : Fin 10) (k : Fin 16)
    (hc : c.val = 160 + 16 * b.val + k.val) : Cat.both h o (ix2 g c) = o (ix3 b k g) := by
  unfold Cat.both
  have hlt : c.val - 160 < 160 := by have := c.isLt; omega
  rw [concatenate_pair_apply_right 1 (Cat.flat h) (Cat.flat o) _ (ix2 g c) rfl rfl (ix2 g ⟨c.val - 160, hlt⟩)
    (fun a ha => by
      match a with
      | ⟨0, _⟩ => rfl
      | ⟨1, _⟩ => exact absurd rfl ha)
    (by show c.val - 160 + 160 = c.val; omega)]
  exact flat_apply o g ⟨c.val - 160, hlt⟩ b k (by show c.val - 160 = _; omega)

/-- Over the extended reals a change of format is the identity: the leading part is the array itself. -/
theorem hi_apply (h o : FVec Ideal S10x16x512 .f32) (i : S512x320.Idx) : Cat.hi h o i = Cat.both h o i := rfl

/-- … and the remainder is the array less itself. -/
theorem lo_apply (h o : FVec Ideal S10x16x512 .f32) (i : S512x320.Idx) :
    Cat.lo h o i = Cat.both h o i - Cat.both h o i := rfl

/-- Columns 0–319 of the operand are the leading parts. -/
theorem catAll_left (h o : FVec Ideal S10x16x512 .f32) (g : Fin 512) (col : Fin 640) (c : Fin 320)
    (hc : col.val = c.val) : Cat.catAll h o (ix2 g col) = Cat.both h o (ix2 g c) := by
  unfold Cat.catAll
  rw [concatenate_pair_apply_left 1 (Cat.hi h o) (Cat.lo h o) _ (ix2 g col) rfl (ix2 g c) (fun a => by
    match a with
    | ⟨0, _⟩ => rfl
    | ⟨1, _⟩ => exact hc.symm)]
  rfl

/-- Columns 320–639 are the remainders, 320 columns less. -/
theorem catAll_right (h o : FVec Ideal S10x16x512 .f32) (g : Fin 512) (col : Fin 640) (c : Fin 320)
    (hc : col.val = 320 + c.val) :
    Cat.catAll h o (ix2 g col) = Cat.both h o (ix2 g c) - Cat.both h o (ix2 g c) := by
  unfold Cat.catAll
  rw [concatenate_pair_apply_right 1 (Cat.hi h o) (Cat.lo h o) _ (ix2 g col) rfl rfl (ix2 g c)
    (fun a ha => by
      match a with
      | ⟨0, _⟩ => rfl
      | ⟨1, _⟩ => exact absurd rfl ha)
    (by show c.val + 320 = col.val; omega)]
  rfl

/-- A real number plus its difference with itself is the number (x − x = 0 needs x finite on the extended reals). -/
theorem add_sub_self_coe (x : ℝ) : (x : EReal) + ((x : EReal) - (x : EReal)) = (x : EReal) := by
  rw [← EReal.coe_sub, sub_self, EReal.coe_zero, add_zero]

/-- The two summands of an entry, 320 columns apart, add up to the entry of the side-by-side array where it is finite. -/
theorem split (h o : FVec Ideal S10x16x512 .f32) (g : Fin 512) (c0 c1 : Fin 640) (c : Fin 320)
    (h0 : c0.val = c.val) (h1 : c1.val = 320 + c.val) (x : ℝ) (hx : Cat.both h o (ix2 g c) = (x : EReal)) :
    Cat.catAll h o (ix2 g c0) + Cat.catAll h o (ix2 g c1) = Cat.both h o (ix2 g c) := by
  rw [catAll_left h o g c0 c h0, catAll_right h o g c1 c h1, hx]
  exact add_sub_self_coe x

/-- The hopping table: columns 16·b + k and 320 + 16·b + k of row g add up to its entry (b, k, g). -/
theorem hop_split (h o : FVec Ideal S10x16x512 .f32) (hh : ∀ i, ∃ x : ℝ, h i = (x : EReal))
    (ho : ∀ i, ∃ x : ℝ, o i = (x : EReal)) (g : Fin 512) (b : Fin 10) (k : Fin 16) :
    Cat.catAll h o (ix2 g (Interp.colFin 0 b k)) + Cat.catAll h o (ix2 g (Interp.colFin 320 b k)) = h (ix3 b k g) := by
  have hb := b.isLt; have hk := k.isLt
  obtain ⟨x, hx⟩ := hh (ix3 b k g)
  have hc : 16 * b.val + k.val < 320 := by omega
  have e := both_left h o g ⟨16 * b.val + k.val, hc⟩ b k rfl
  rw [← e]
  exact split h o g _ _ ⟨16 * b.val + k.val, hc⟩
    (by show (0 + 16 * b.val + k.val) % 640 = 16 * b.val + k.val; omega)
    (by show (320 + 16 * b.val + k.val) % 640 = 320 + (16 * b.val + k.val); omega) x (e.trans hx)

/-- The overlap table: columns 160 + 16·b + k and 480 + 16·b + k of row g add up to its entry (b, k, g). -/
theorem over_split (h o : FVec Ideal S10x16x512 .f32) (hh : ∀ i, ∃ x : ℝ, h i = (x : EReal))
    (ho : ∀ i, ∃ x : ℝ, o i = (x : EReal)) (g : Fin 512) (b : Fin 10) (k : Fin 16) :
    Cat.catAll h o (ix2 g (Interp.colFin 160 b k)) + Cat.catAll h o (ix2 g (Interp.colFin 480 b k)) = o (ix3 b k g) := by
  have hb := b.isLt; have hk := k.isLt
  obtain ⟨x, hx⟩ := ho (ix3 b k g)
  have hc : 160 + 16 * b.val + k.val < 320 := by omega
  have e := both_right h o g ⟨160 + 16 * b.val + k.val, hc⟩ b k rfl
  rw [← e]
  exact split h o g _ _ ⟨160 + 16 * b.val + k.val, hc⟩
    (by show (160 + 16 * b.val + k.val) % 640 = 160 + 16 * b.val + k.val; omega)
    (by show (480 + 16 * b.val + k.val) % 640 = 320 + (160 + 16 * b.val + k.val); omega) x (e.trans hx)

end Cert.KernelIdeal.CatTable

end
-- ==== Proof.PadSlice.lean ====
/-
  Two layout operations of the first program's host side, read at an index.

  The inputs are padded at the end up to a whole number of blocks, and each result is the leading slice of an array
  over the padded length: below the original length the padded array is the array, and a leading slice reads the
  array it is cut from.
-/
import Idealize.ShloMosaic.Lib.Pipeline.Value
import Idealize.ShloMosaic.Lib.ValueIdx

noncomputable section

namespace Cert.Arrays

open Idealize.ShloMosaic Idealize.ShloMosaic.ValueIdx

variable {α : Type}

/-- A rank-1 array padded at its end only reads, below its length, as the array. -/
theorem pad1_apply {n n' hi : Nat} (x : (⟨1, ![n]⟩ : Shape).Idx → α) {u : Shape} (v : u.Idx → α)
    (h : (⟨1, ![n]⟩ : Shape).Pads ![0] ![hi] ![0] ⟨1, ![n']⟩) (hu : 0 < u.numel) (P : Fin n) (P' : Fin n')
    (hP : P'.val = P.val) :
    pad ⟨1, ![n']⟩ ![0] ![hi] ![0] x v h hu (ix1 P') = x (ix1 P) := by
  unfold pad
  have hin : ∀ a : Fin (⟨1, ![n]⟩ : Shape).rank, (![0] : Fin 1 → Nat) a ≤ ((ix1 P') (a.cast h.1)).val
      ∧ (((ix1 P') (a.cast h.1)).val - (![0] : Fin 1 → Nat) a) % ((![0] : Fin 1 → Nat) a + 1) = 0
      ∧ (((ix1 P') (a.cast h.1)).val - (![0] : Fin 1 → Nat) a) / ((![0] : Fin 1 → Nat) a + 1) < (⟨1, ![n]⟩ : Shape).size a := by
    intro a
    match a with
    | ⟨0, _⟩ =>
      refine ⟨Nat.zero_le _, Nat.mod_one _, ?_⟩
      show (P'.val - 0) / (0 + 1) < n
      rw [hP]; simp
  rw [dif_pos hin]
  refine congrArg x (funext fun a => ?_)
  match a with
  | ⟨0, _⟩ =>
    apply Fin.ext
    show (P'.val - 0) / (0 + 1) = P.val
    rw [hP]; simp

/-- At and past the array's length the padded array holds the padding value. -/
theorem pad1_apply_ge {n n' hi : Nat} (x : (⟨1, ![n]⟩ : Shape).Idx → α) {u : Shape} (v : u.Idx → α)
    (h : (⟨1, ![n]⟩ : Shape).Pads ![0] ![hi] ![0] ⟨1, ![n']⟩) (hu : 0 < u.numel) (P' : Fin n') (hP : n ≤ P'.val) :
    pad ⟨1, ![n']⟩ ![0] ![hi] ![0] x v h hu (ix1 P') = v (Shape.Idx.first hu) := by
  unfold pad
  rw [dif_neg]
  intro hin
  have := (hin ⟨0, Nat.zero_lt_one⟩).2.2
  have h2 : (P'.val - 0) / (0 + 1) < n := this
  simp at h2
  omega

/-- The leading rows of a rank-2 array, read at an index, are the array's. -/
theorem slice2_apply {n n' k : Nat} (x : (⟨2, ![n', k]⟩ : Shape).Idx → α)
    (h : (⟨2, ![n', k]⟩ : Shape).Slices ![0, 0] ⟨2, ![n, k]⟩) (P : Fin n) (P' : Fin n') (hP : P'.val = P.val) (q : Fin k) :
    extractStridedSlice ⟨2, ![n, k]⟩ ![0, 0] x h (ix2 P q) = x (ix2 P' q) :=
  extractStridedSlice_apply _ x h _ _ (fun a => by
    match a with
    | ⟨0, _⟩ => show P'.val = 0 + P.val; omega
    | ⟨1, _⟩ => show q.val = 0 + q.val; omega)

end Cert.Arrays

end
-- ==== Proof.Results.lean ====
/-
  The three results as whole arrays: for every edge the interpolated row of the hopping table and of the overlap
  table at the edge's distance and bond type, and for every atom the row of the onsite table at its type.
-/
import proofs.«402313_j9783935500642_3_alg».proof.Proof.Spec

noncomputable section

namespace Cert.Interp

open Idealize.ShloMosaic Idealize.ShloMosaic.ValueIdx

/-- Row `j 0` of the result is the table interpolated at that edge; column `j 1` the integral. -/
def edgeArr (rij : (⟨1, ![2000000]⟩ : Shape).Idx → EReal) (et : (⟨1, ![2000000]⟩ : Shape).Idx → BitVec 32)
    (tab : (⟨3, ![10, 16, 512]⟩ : Shape).Idx → EReal) : (⟨2, ![2000000, 16]⟩ : Shape).Idx → EReal :=
  fun j => edgeK (rij (ix1 (j 0))) (et (ix1 (j 0))) tab (j 1)

/-- Row `j 0` of the result is the onsite table's row at that atom's type. -/
def nodeArr (aty : (⟨1, ![500000]⟩ : Shape).Idx → BitVec 32) (tab : (⟨2, ![4, 4]⟩ : Shape).Idx → EReal) :
    (⟨2, ![500000, 4]⟩ : Shape).Idx → EReal :=
  fun j => tab (ix2 (rowFin (aty (ix1 (j 0)))) (j 1))

end Cert.Interp

end
-- ==== Proof.KernelValue.lean ====
/-
  The three results of the first program as whole-array functions of its arguments, on the extended reals.

  Each result buffer is the leading slice of a region's output array (the fold of the host operations read at that
  buffer), so an entry (P, q) of a result is the entry (P, q) of the output array over the padded length. The edge
  kernel's output at row P is the interpolation read off the table operand at the padded distance and the padded
  bond type of row P; below the original length the padded arrays are the arguments themselves, and in the table
  operand the two summands of every entry, 320 columns apart, add up to the table's entry because the tables are
  finite. Hence row P of the first result is the hopping table interpolated at edge P, and row P of the second the
  overlap table. The node kernel's output at row P is the row of the on-site table at the padded atom type, provided
  every padded type lies in [0, 3]: below the original length that is the hypothesis on the argument, and from there
  on the padding value is the word 0.
-/
import proofs.«402313_j9783935500642_3_alg».proof.Proof.HostFold
import proofs.«402313_j9783935500642_3_alg».proof.Proof.EdgeArr
import proofs.«402313_j9783935500642_3_alg».proof.Proof.NodeValue
import proofs.«402313_j9783935500642_3_alg».proof.Proof.CatTable
import proofs.«402313_j9783935500642_3_alg».proof.Proof.PadSlice
import proofs.«402313_j9783935500642_3_alg».proof.Proof.Results
import proofs.«402313_j9783935500642_3_alg».proof.Proof.Spec

set_option maxRecDepth 16384

noncomputable section

namespace Cert.KernelIdeal.KernelValue

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- The first edge result: row P is the hopping table interpolated at edge P's distance and bond type. -/
theorem feat_value (c : Dev nD) (h3 : ∀ i, ∃ x : ℝ, m ((c.tc : Thread nD τ).loc main_arg3) i = (x : EReal))
    (h4 : ∀ i, ∃ x : ℝ, m ((c.tc : Thread nD τ).loc main_arg4) i = (x : EReal)) :
    Gen.W11 m ρ c (Proc.devRef .tc main_v14) = Interp.edgeArr (m ((c.tc : Thread nD τ).loc main_arg0)) (m ((c.tc : Thread nD τ).loc main_arg1)) (m ((c.tc : Thread nD τ).loc main_arg3)) := by
  rw [Fold.res_feat]
  funext j
  obtain ⟨P, q, rfl⟩ : ∃ P q, j = ix2 P q := ⟨j 0, j 1, eq_ix2 j⟩
  have hP : P.val < 2000896 := by have := P.isLt; omega
  refine (Arrays.slice2_apply (n := 2000000) (n' := 2000896) (k := 16) _ slices_S2000896x16_S2000000x16_0_0 P ⟨P.val, hP⟩ rfl q).trans ?_
  refine (EdgeArr.feat_array (Gen.V7 m ρ) c ⟨P.val, hP⟩ q).trans ?_
  rw [Fold.entry_rij, Fold.entry_etype, Fold.entry_cat]
  have e0 := Arrays.pad1_apply (n := 2000000) (n' := 2000896) (hi := 896) (m ((c.tc : Thread nD τ).loc main_arg0)) (constant (F := Ideal) S_ .f32 0x3F800000#32) pads_S2000000_S2000896_08960 h_S_ P ⟨P.val, hP⟩ rfl
  have e1 := Arrays.pad1_apply (n := 2000000) (n' := 2000896) (hi := 896) (m ((c.tc : Thread nD τ).loc main_arg1)) (constantI S_ 32 0#32) pads_S2000000_S2000896_08960 h_S_ P ⟨P.val, hP⟩ rfl
  rw [e0, e1]
  exact Interp.edgeCat_eq _ _ _ 0 (m ((c.tc : Thread nD τ).loc main_arg3)) q (fun g b k => CatTable.hop_split _ _ h3 h4 g b k)

/-- The second edge result: the same with the overlap table, whose columns start 160 further on. -/
theorem over_value (c : Dev nD) (h3 : ∀ i, ∃ x : ℝ, m ((c.tc : Thread nD τ).loc main_arg3) i = (x : EReal))
    (h4 : ∀ i, ∃ x : ℝ, m ((c.tc : Thread nD τ).loc main_arg4) i = (x : EReal)) :
    Gen.W11 m ρ c (Proc.devRef .tc main_v15) = Interp.edgeArr (m ((c.tc : Thread nD τ).loc main_arg0)) (m ((c.tc : Thread nD τ).loc main_arg1)) (m ((c.tc : Thread nD τ).loc main_arg4)) := by
  rw [Fold.res_over]
  funext j
  obtain ⟨P, q, rfl⟩ : ∃ P q, j = ix2 P q := ⟨j 0, j 1, eq_ix2 j⟩
  have hP : P.val < 2000896 := by have := P.isLt; omega
  refine (Arrays.slice2_apply (n := 2000000) (n' := 2000896) (k := 16) _ slices_S2000896x16_S2000000x16_0_0 P ⟨P.val, hP⟩ rfl q).trans ?_
  refine (EdgeArr.over_array (Gen.V7 m ρ) c ⟨P.val, hP⟩ q).trans ?_
  rw [Fold.entry_rij, Fold.entry_etype, Fold.entry_cat]
  have e0 := Arrays.pad1_apply (n := 2000000) (n' := 2000896) (hi := 896) (m ((c.tc : Thread nD τ).loc main_arg0)) (constant (F := Ideal) S_ .f32 0x3F800000#32) pads_S2000000_S2000896_08960 h_S_ P ⟨P.val, hP⟩ rfl
  have e1 := Arrays.pad1_apply (n := 2000000) (n' := 2000896) (hi := 896) (m ((c.tc : Thread nD τ).loc main_arg1)) (constantI S_ 32 0#32) pads_S2000000_S2000896_08960 h_S_ P ⟨P.val, hP⟩ rfl
  rw [e0, e1]
  exact Interp.edgeCat_eq _ _ _ 160 (m ((c.tc : Thread nD τ).loc main_arg4)) q (fun g b k => CatTable.over_split _ _ h3 h4 g b k)

/-- The node result: row P is the on-site table's row at atom P's type. Every padded type lies in [0, 3]: an
    argument's by hypothesis, the padding's because it is the word 0. -/
theorem node_value (c : Dev nD) (hat : ∀ i, 0 ≤ (m ((c.tc : Thread nD τ).loc main_arg2) i).toInt ∧ (m ((c.tc : Thread nD τ).loc main_arg2) i).toInt < 4) :
    Gen.W11 m ρ c (Proc.devRef .tc main_v17) = Interp.nodeArr (m ((c.tc : Thread nD τ).loc main_arg2)) (m ((c.tc : Thread nD τ).loc main_arg5)) := by
  rw [Fold.res_node]
  funext j
  obtain ⟨P, q, rfl⟩ : ∃ P q, j = ix2 P q := ⟨j 0, j 1, eq_ix2 j⟩
  have hP : P.val < 507904 := by have := P.isLt; omega
  refine (Arrays.slice2_apply (n := 500000) (n' := 507904) (k := 4) _ slices_S507904x4_S500000x4_0_0 P ⟨P.val, hP⟩ rfl q).trans ?_
  have hV : ∀ P' : Fin 507904, 0 ≤ (Gen.V9 m ρ c main_v2 (ix1 P')).toInt ∧ (Gen.V9 m ρ c main_v2 (ix1 P')).toInt < 4 := by
    intro P'
    rw [Fold.entry_atom]
    by_cases hlt : P'.val < 500000
    · rw [Arrays.pad1_apply (n := 500000) (n' := 507904) (hi := 7904) (m ((c.tc : Thread nD τ).loc main_arg2)) (constantI S_ 32 0#32) pads_S500000_S507904_079040 h_S_ ⟨P'.val, hlt⟩ P' rfl]
      exact hat _
    · rw [Arrays.pad1_apply_ge (n := 500000) (n' := 507904) (hi := 7904) (m ((c.tc : Thread nD τ).loc main_arg2)) (constantI S_ 32 0#32) pads_S500000_S507904_079040 h_S_ P' (by omega)]
      show 0 ≤ (0#32 : BitVec 32).toInt ∧ (0#32 : BitVec 32).toInt < 4
      decide
  refine (NodeValue.node_array (Gen.V9 m ρ) c hV ⟨P.val, hP⟩ q).trans ?_
  rw [Fold.entry_atom, Fold.entry_onsite]
  rw [Arrays.pad1_apply (n := 500000) (n' := 507904) (hi := 7904) (m ((c.tc : Thread nD τ).loc main_arg2)) (constantI S_ 32 0#32) pads_S500000_S507904_079040 h_S_ P ⟨P.val, hP⟩ rfl]
  rfl

end Cert.KernelIdeal.KernelValue

end
-- ==== Proof.GatherRead.lean ====
/-
  The two table look-ups of the second program, read at one element.

  A gather's result at `(P, q)` is the operand at an index computed axis by axis: on an axis of the start index
  map, the start index's component for that axis — a signed word, read as a natural number and kept at most
  `size − slice size` —; on a kept axis, the result's coordinate on the matching offset axis; a collapsed axis
  adds nothing, and there are no batching axes here.

  * The three-axis table `10 × 16 × 512` is gathered with start indices `(P, ·) ↦ (a, b)`, the two columns laid
    side by side; the axes `0` and `2` are indexed and collapsed (slice sizes `1, 16, 1`), the axis `1` is kept
    whole. So the result at `(P, q)` is the table at `(min a 9, q, min b 511)`.
  * The two-axis table `4 × 4` is gathered with one start index per row; axis `0` is indexed and collapsed, axis
    `1` kept whole. So the result at `(P, q)` is the table at `(min a 3, q)`.

  Both are read off the definition: each coordinate of the operand index is computed on its own, and the start
  indices of the first gather are read through the concatenation of their two columns.
-/
import proofs.«402313_j9783935500642_3_alg».proof.ReferenceIdeal
import proofs.«402313_j9783935500642_3_alg».proof.Proof.Spec
import Idealize.ShloMosaic.Lib.ValueIdx
import Idealize.ShloMosaic.Lib.Pipeline.Value

noncomputable section

namespace Cert.ReferenceIdeal.GatherRead

open Idealize.ShloMosaic Idealize.ShloMosaic.ValueIdx
open Cert.ReferenceIdeal

variable [Facts]
open Facts₀ Facts

local notation "g3" => gather_S10x16x512_S2000000x2_S2000000x16_1_02_n_n_02_1_1161
local notation "g2" => gather_S4x4_S500000x1_S500000x4_1_0_n_n_0_1_14

/-! ## Two columns side by side -/

/-- Column `0` of the two columns laid side by side is the first column. -/
theorem cat_left (ia ib : IVec S2000000x1 32) (P : Fin 2000000) :
    concatenate S2000000x2 1 [⟨S2000000x1, ia⟩, ⟨S2000000x1, ib⟩] concatenates_S2000000x1_S2000000x1_S2000000x2_d1 (ix2 P 0)
      = ia (ix2 P 0) := by
  refine concatenate_pair_apply_left (1 : Fin S2000000x2.rank) ia ib _ (ix2 P 0) rfl (ix2 P 0) ?_
  intro b
  match b with
  | ⟨0, _⟩ => rfl
  | ⟨1, _⟩ => rfl

/-- Column `1` of the two columns laid side by side is the second column: the first has width `1`. -/
theorem cat_right (ia ib : IVec S2000000x1 32) (P : Fin 2000000) :
    concatenate S2000000x2 1 [⟨S2000000x1, ia⟩, ⟨S2000000x1, ib⟩] concatenates_S2000000x1_S2000000x1_S2000000x2_d1 (ix2 P 1)
      = ib (ix2 P 0) := by
  refine concatenate_pair_apply_right (1 : Fin S2000000x2.rank) ia ib _ (ix2 P 1) rfl rfl (ix2 P 0) ?_ ?_
  · intro b hb
    match b, hb with
    | ⟨0, _⟩, _ => rfl
    | ⟨1, _⟩, hb => exact absurd rfl hb
  · rfl

/-! ## The three-axis table: the operand index, axis by axis -/

/-- Axis `0` is the first axis of the start index map and is collapsed: the coordinate is the start index's
    first component, kept at most `10 − 1`. -/
theorem g3_axis0 (idx : IVec S2000000x2 32) (P : Fin 2000000) (q : Fin 16) :
    ((g3).operandIdx (ix2 P q) idx 0).val = min (idx (ix2 P 0)).toInt.toNat 9 := by
  have hm : (0 : Fin S10x16x512.rank) ∈ (g3).startIndexMap := (by decide : (0 : Fin 3) ∈ ([0, 2] : List (Fin 3)))
  show (g3).start (ix2 P q) idx 0 + (g3).batchCoord (ix2 P q) 0 + (g3).offCoord (ix2 P q) 0 = _
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos hm]
  have hsi : (g3).siIdx (ix2 P q) ⟨List.idxOf (0 : Fin S10x16x512.rank) (g3).startIndexMap, List.idxOf_lt_length_iff.2 hm⟩ = ix2 P 0 := by
    funext b; refine Fin.ext ?_
    match b with
    | ⟨0, _⟩ => rfl
    | ⟨1, _⟩ => rfl
  rw [hsi]
  rfl

/-- Axis `2` is the second axis of the start index map and is collapsed: the coordinate is the start index's
    second component, kept at most `512 − 1`. -/
theorem g3_axis2 (idx : IVec S2000000x2 32) (P : Fin 2000000) (q : Fin 16) :
    ((g3).operandIdx (ix2 P q) idx 2).val = min (idx (ix2 P 1)).toInt.toNat 511 := by
  have hm : (2 : Fin S10x16x512.rank) ∈ (g3).startIndexMap := (by decide : (2 : Fin 3) ∈ ([0, 2] : List (Fin 3)))
  show (g3).start (ix2 P q) idx 2 + (g3).batchCoord (ix2 P q) 2 + (g3).offCoord (ix2 P q) 2 = _
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos hm]
  have hsi : (g3).siIdx (ix2 P q) ⟨List.idxOf (2 : Fin S10x16x512.rank) (g3).startIndexMap, List.idxOf_lt_length_iff.2 hm⟩ = ix2 P 1 := by
    funext b; refine Fin.ext ?_
    match b with
    | ⟨0, _⟩ => rfl
    | ⟨1, _⟩ => rfl
  rw [hsi]
  rfl

/-- Axis `1` is kept whole and is not indexed: the coordinate is the result's own second coordinate. -/
theorem g3_axis1 (idx : IVec S2000000x2 32) (P : Fin 2000000) (q : Fin 16) :
    ((g3).operandIdx (ix2 P q) idx 1).val = q.val := by
  have hm : (1 : Fin S10x16x512.rank) ∉ (g3).startIndexMap := (by decide : (1 : Fin 3) ∉ ([0, 2] : List (Fin 3)))
  have hk : (1 : Fin S10x16x512.rank) ∈ (g3).sKept := (by decide : (1 : Fin 3) ∈ ([1] : List (Fin 3)))
  show (g3).start (ix2 P q) idx 1 + (g3).batchCoord (ix2 P q) 1 + (g3).offCoord (ix2 P q) 1 = _
  rw [GatherDims.batchCoord_eq_zero _ _ _ List.not_mem_nil]
  unfold GatherDims.start GatherDims.offCoord
  rw [dif_neg hm, dif_pos hk]
  simp only [Nat.add_zero, Nat.zero_add]
  rfl

/-- THE THREE-AXIS GATHER READ AT `(P, q)`: the table at `(min a 9, q, min b 511)`, `a` and `b` the two start
    index columns at row `P`, read signed. -/
theorem gather3_apply {α : Type} (x : S10x16x512.Idx → α) (ia ib : IVec S2000000x1 32) (P : Fin 2000000) (q : Fin 16) :
    Host.gather gather_S10x16x512_S2000000x2_S2000000x16_1_02_n_n_02_1_1161 x (concatenate S2000000x2 1 [⟨S2000000x1, ia⟩, ⟨S2000000x1, ib⟩] concatenates_S2000000x1_S2000000x1_S2000000x2_d1) (ix2 P q)
      = x (ix3 ⟨min (ia (ix2 P 0)).toInt.toNat 9, by omega⟩ q ⟨min (ib (ix2 P 0)).toInt.toNat 511, by omega⟩) := by
  unfold Host.gather
  congr 1
  funext a
  refine Fin.ext ?_
  match a with
  | ⟨0, _⟩ =>
    refine (g3_axis0 _ P q).trans ?_
    exact congrArg (fun w : BitVec 32 => min w.toInt.toNat 9) (cat_left ia ib P)
  | ⟨1, _⟩ => exact g3_axis1 _ P q
  | ⟨2, _⟩ =>
    refine (g3_axis2 _ P q).trans ?_
    exact congrArg (fun w : BitVec 32 => min w.toInt.toNat 511) (cat_right ia ib P)

/-! ## The two-axis table -/

/-- Axis `0` is indexed and collapsed: the coordinate is the start index, kept at most `4 − 1`. -/
theorem g2_axis0 (idx : IVec S500000x1 32) (P : Fin 500000) (q : Fin 4) :
    ((g2).operandIdx (ix2 P q) idx 0).val = min (idx (ix2 P 0)).toInt.toNat 3 := by
  have hm : (0 : Fin S4x4.rank) ∈ (g2).startIndexMap := (by decide : (0 : Fin 2) ∈ ([0] : List (Fin 2)))
  show (g2).start (ix2 P q) idx 0 + (g2).batchCoord (ix2 P q) 0 + (g2).offCoord (ix2 P q) 0 = _
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos hm]
  have hsi : (g2).siIdx (ix2 P q) ⟨List.idxOf (0 : Fin S4x4.rank) (g2).startIndexMap, List.idxOf_lt_length_iff.2 hm⟩ = ix2 P 0 := by
    funext b; refine Fin.ext ?_
    match b with
    | ⟨0, _⟩ => rfl
    | ⟨1, _⟩ => rfl
  rw [hsi]
  rfl

/-- Axis `1` is kept whole and is not indexed: the coordinate is the result's own second coordinate. -/
theorem g2_axis1 (idx : IVec S500000x1 32) (P : Fin 500000) (q : Fin 4) :
    ((g2).operandIdx (ix2 P q) idx 1).val = q.val := by
  have hm : (1 : Fin S4x4.rank) ∉ (g2).startIndexMap := (by decide : (1 : Fin 2) ∉ ([0] : List (Fin 2)))
  have hk : (1 : Fin S4x4.rank) ∈ (g2).sKept := (by decide : (1 : Fin 2) ∈ ([1] : List (Fin 2)))
  show (g2).start (ix2 P q) idx 1 + (g2).batchCoord (ix2 P q) 1 + (g2).offCoord (ix2 P q) 1 = _
  rw [GatherDims.batchCoord_eq_zero _ _ _ List.not_mem_nil]
  unfold GatherDims.start GatherDims.offCoord
  rw [dif_neg hm, dif_pos hk]
  simp only [Nat.add_zero, Nat.zero_add]
  rfl

/-- THE TWO-AXIS GATHER READ AT `(P, q)`: the table at `(min a 3, q)`, `a` the start index at row `P`, read
    signed. -/
theorem gather2_apply {α : Type} (x : S4x4.Idx → α) (ia : IVec S500000x1 32) (P : Fin 500000) (q : Fin 4) :
    Host.gather gather_S4x4_S500000x1_S500000x4_1_0_n_n_0_1_14 x ia (ix2 P q) = x (ix2 ⟨min (ia (ix2 P 0)).toInt.toNat 3, by omega⟩ q) := by
  unfold Host.gather
  congr 1
  funext a
  refine Fin.ext ?_
  match a with
  | ⟨0, _⟩ => exact g2_axis0 _ P q
  | ⟨1, _⟩ => exact g2_axis1 _ P q

/-- A use at the extended reals, as the second program's run states it. -/
example (x : S10x16x512.Idx → EReal) (ia ib : IVec S2000000x1 32) (P : Fin 2000000) (q : Fin 16) :
    Host.gather gather_S10x16x512_S2000000x2_S2000000x16_1_02_n_n_02_1_1161 x (concatenate S2000000x2 1 [⟨S2000000x1, ia⟩, ⟨S2000000x1, ib⟩] concatenates_S2000000x1_S2000000x1_S2000000x2_d1) (ix2 P q)
      = x (ix3 ⟨min (ia (ix2 P 0)).toInt.toNat 9, by omega⟩ q ⟨min (ib (ix2 P 0)).toInt.toNat 511, by omega⟩) :=
  gather3_apply x ia ib P q

end Cert.ReferenceIdeal.GatherRead
-- ==== Proof.RefValue.lean ====
/-
  The second program's three results, one element at a time, on the extended reals.

  For an edge `P` with distance `r` and bond type `e`, and an integral `q`, the second program computes the position
  `t = (r − 1) / dx`, the cell `⌊t⌋` kept inside `[0, 510]`, the fraction `f = t − cell`, gathers the table's entries
  `y₀, y₁` at `(e, q, cell)` and `(e, q, cell + 1)` — each coordinate read from the end when negative, then kept inside
  its axis — and returns `y₀ · (1 − f) + y₁ · f`. It does so twice, once per table, recomputing everything. For an atom
  `P` of type `a` it returns the row `a` of the onsite table, read the same way. This module follows the program
  operation by operation and states each result's element `(P, q)` as that closed form. Nothing here is algebra: every
  step is the definition of an operation read at an index, and the two kinds of gather are read by their own lemmas.
-/
import proofs.«402313_j9783935500642_3_alg».proof.Proof.RefRead
import proofs.«402313_j9783935500642_3_alg».proof.Proof.Spec
import proofs.«402313_j9783935500642_3_alg».proof.Proof.GatherRead

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## The two gathers, read at coordinates given by their values -/

/-- The table gather at an edge and an integral is the table's entry at any two coordinates whose values are the
    clamped start indices. -/
theorem gather3_at (x : S10x16x512.Idx → EReal) (ia ib : IVec S2000000x1 32) (P : Fin 2000000) (q : Fin 16)
    (a : Fin 10) (b : Fin 512) (ha : min (ia (ix2 P 0)).toInt.toNat 9 = a.val) (hb : min (ib (ix2 P 0)).toInt.toNat 511 = b.val) :
    Host.gather gather_S10x16x512_S2000000x2_S2000000x16_1_02_n_n_02_1_1161 x
        (concatenate S2000000x2 1 [⟨S2000000x1, ia⟩, ⟨S2000000x1, ib⟩] concatenates_S2000000x1_S2000000x1_S2000000x2_d1) (ix2 P q)
      = x (ix3 a q b) := by
  rw [GatherRead.gather3_apply]
  have key : ∀ (a' : Fin 10) (b' : Fin 512), a' = a → b' = b → x (ix3 a' q b') = x (ix3 a q b) := by
    rintro _ _ rfl rfl; rfl
  exact key _ _ (Fin.ext ha) (Fin.ext hb)

/-- The row gather at an atom and a column, likewise. -/
theorem gather2_at (x : S4x4.Idx → EReal) (ia : IVec S500000x1 32) (P : Fin 500000) (q : Fin 4)
    (a : Fin 4) (ha : min (ia (ix2 P 0)).toInt.toNat 3 = a.val) :
    Host.gather gather_S4x4_S500000x1_S500000x4_1_0_n_n_0_1_14 x ia (ix2 P q) = x (ix2 a q) := by
  rw [GatherRead.gather2_apply]
  have key : ∀ (a' : Fin 4), a' = a → x (ix2 a' q) = x (ix2 a q) := by
    rintro _ rfl; rfl
  exact key _ (Fin.ext ha)

/-! ## The first table: position, cell, fraction and coordinates of one edge -/

section first
variable (x0 : (⟨S2000000, .f32⟩ : BufTy).Contents (Elt Ideal)) (x1 : (⟨S2000000, .i32⟩ : BufTy).Contents (Elt Ideal))

/-- The position of edge `P` on the grid. -/
theorem pos_apply (P : Fin 2000000) : val_main_v3 (F := Ideal) x0 (ix1 P) = Interp.posDiv (x0 (ix1 P)) := by
  rw [val_main_v3_apply, val_main_v1_apply, val_main_v0_apply, val_main_cst_apply, val_main_v2_apply, val_main_cst_0_apply]
  rfl

/-- Its cell: the floor of the position, converted and kept inside `[0, 510]`. -/
theorem cell_apply (P : Fin 2000000) : val_main_v6 (F := Ideal) x0 (ix1 P) = Interp.cellW (Interp.posDiv (x0 (ix1 P))) := by
  rw [val_main_v6_apply, val_main_call0_v4_apply, val_main_call0_v3_apply, val_main_c_1_apply, val_main_call0_v2_apply,
    val_main_call0_v1_apply, val_main_call0_v0_apply, val_main_c_apply, val_main_v5_apply, val_main_v4_apply, pos_apply]
  rfl

/-- Its fraction inside the cell. -/
theorem frac_apply (P : Fin 2000000) : val_main_v8 (F := Ideal) x0 (ix1 P) = Interp.frac (Interp.posDiv (x0 (ix1 P))) := by
  rw [val_main_v8_apply, val_main_v7_apply, cell_apply, pos_apply]
  rfl

/-- The bond type, read from the end when negative (the copy the first gather reads). -/
theorem bond_apply (P : Fin 2000000) : val_main_v14 (F := Ideal) x1 (ix1 P) = Interp.wrapW 10#32 (x1 (ix1 P)) := by
  rw [val_main_v14_apply, val_main_v11_apply, val_main_v10_apply, val_main_c_2_apply, val_main_v13_apply, val_main_v12_apply,
    val_main_c_3_apply]
  rfl

/-- The same (the copy the second gather reads). -/
theorem bond_apply' (P : Fin 2000000) : val_main_v30 (F := Ideal) x1 (ix1 P) = Interp.wrapW 10#32 (x1 (ix1 P)) := by
  rw [val_main_v30_apply, val_main_v27_apply, val_main_v26_apply, val_main_c_7_apply, val_main_v29_apply, val_main_v28_apply,
    val_main_c_8_apply]
  rfl

/-- The cell as a table coordinate. -/
theorem cellwrap_apply (P : Fin 2000000) :
    val_main_v19 (F := Ideal) x0 (ix1 P) = Interp.wrapW 512#32 (Interp.cellW (Interp.posDiv (x0 (ix1 P)))) := by
  rw [val_main_v19_apply, val_main_v16_apply, val_main_v15_apply, val_main_c_4_apply, val_main_v18_apply, val_main_v17_apply,
    val_main_c_5_apply, cell_apply]
  rfl

/-- The next grid point as a table coordinate. -/
theorem cellwrap1_apply (P : Fin 2000000) :
    val_main_v35 (F := Ideal) x0 (ix1 P) = Interp.wrapW 512#32 (IntOp.addi (Interp.cellW (Interp.posDiv (x0 (ix1 P)))) 1#32) := by
  rw [val_main_v35_apply, val_main_v32_apply, val_main_v31_apply, val_main_c_9_apply, val_main_v34_apply, val_main_v33_apply,
    val_main_c_10_apply, val_main_v25_apply, val_main_v24_apply, val_main_c_6_apply, cell_apply]
  rfl

/-- A column index `(P, z)` reads the flat array at `P`; a matrix index `(P, q)` reads the column at `(P, 0)`. -/
theorem idx9 (P : Fin 2000000) (z : Fin 1) : idx_main_v9 (ix2 P z) = ix1 P := funext fun a => by match a with | ⟨0, _⟩ => rfl
theorem idx20 (P : Fin 2000000) (z : Fin 1) : idx_main_v20 (ix2 P z) = ix1 P := funext fun a => by match a with | ⟨0, _⟩ => rfl
theorem idx21 (P : Fin 2000000) (z : Fin 1) : idx_main_v21 (ix2 P z) = ix1 P := funext fun a => by match a with | ⟨0, _⟩ => rfl
theorem idx36 (P : Fin 2000000) (z : Fin 1) : idx_main_v36 (ix2 P z) = ix1 P := funext fun a => by match a with | ⟨0, _⟩ => rfl
theorem idx37 (P : Fin 2000000) (z : Fin 1) : idx_main_v37 (ix2 P z) = ix1 P := funext fun a => by match a with | ⟨0, _⟩ => rfl
theorem idx42 (P : Fin 2000000) (q : Fin 16) : idx_main_v42 (ix2 P q) = ix2 P 0 :=
  funext fun a => by match a with | ⟨0, _⟩ => rfl | ⟨1, _⟩ => rfl
theorem idx44 (P : Fin 2000000) (q : Fin 16) : idx_main_v44 (ix2 P q) = ix2 P 0 :=
  funext fun a => by match a with | ⟨0, _⟩ => rfl | ⟨1, _⟩ => rfl

/-- One element of the first result. -/
theorem feat_val (x3 : (⟨S10x16x512, .f32⟩ : BufTy).Contents (Elt Ideal)) (P : Fin 2000000) (q : Fin 16) :
    val_main_v46 (F := Ideal) x0 x1 x3 (ix2 P q) = Interp.edgeR (x0 (ix1 P)) (x1 (ix1 P)) x3 q := by
  rw [val_main_v46_apply, val_main_v43_apply, val_main_v45_apply, val_main_v42_apply, val_main_v44_apply, idx42, idx44,
    val_main_v41_apply, val_main_v40_apply, val_main_cst_11_apply, val_main_v9_apply, idx9, frac_apply]
  unfold val_main_v23 val_main_v39 val_main_v22 val_main_v38
  rw [gather3_at x3 _ _ P q (Interp.bondRefFin (x1 (ix1 P))) (Interp.cellRefFin (Interp.posDiv (x0 (ix1 P))))
        (by rw [val_main_v20_apply, idx20, bond_apply]; rfl) (by rw [val_main_v21_apply, idx21, cellwrap_apply]; rfl),
      gather3_at x3 _ _ P q (Interp.bondRefFin (x1 (ix1 P))) (Interp.cellRefFin1 (Interp.posDiv (x0 (ix1 P))))
        (by rw [val_main_v36_apply, idx36, bond_apply']; rfl) (by rw [val_main_v37_apply, idx37, cellwrap1_apply]; rfl)]
  rfl

end first

/-! ## The second table: the same reading, over the buffers of the second interpolation -/

section second
variable (x0 : (⟨S2000000, .f32⟩ : BufTy).Contents (Elt Ideal)) (x1 : (⟨S2000000, .i32⟩ : BufTy).Contents (Elt Ideal))

/-- The position of edge `P` on the grid, as the second interpolation computes it again. -/
theorem pos2_apply (P : Fin 2000000) : val_main_v50 (F := Ideal) x0 (ix1 P) = Interp.posDiv (x0 (ix1 P)) := by
  rw [val_main_v50_apply, val_main_v48_apply, val_main_v47_apply, val_main_cst_12_apply, val_main_v49_apply, val_main_cst_13_apply]
  rfl

/-- Its cell. -/
theorem cell2_apply (P : Fin 2000000) : val_main_v53 (F := Ideal) x0 (ix1 P) = Interp.cellW (Interp.posDiv (x0 (ix1 P))) := by
  rw [val_main_v53_apply, val_main_call1_v4_apply, val_main_call1_v3_apply, val_main_c_15_apply, val_main_call1_v2_apply,
    val_main_call1_v1_apply, val_main_call1_v0_apply, val_main_c_14_apply, val_main_v52_apply, val_main_v51_apply, pos2_apply]
  rfl

/-- Its fraction inside the cell. -/
theorem frac2_apply (P : Fin 2000000) : val_main_v55 (F := Ideal) x0 (ix1 P) = Interp.frac (Interp.posDiv (x0 (ix1 P))) := by
  rw [val_main_v55_apply, val_main_v54_apply, cell2_apply, pos2_apply]
  rfl

/-- The bond type, read from the end when negative (the copy the third gather reads). -/
theorem bond2_apply (P : Fin 2000000) : val_main_v61 (F := Ideal) x1 (ix1 P) = Interp.wrapW 10#32 (x1 (ix1 P)) := by
  rw [val_main_v61_apply, val_main_v58_apply, val_main_v57_apply, val_main_c_16_apply, val_main_v60_apply, val_main_v59_apply,
    val_main_c_17_apply]
  rfl

/-- The same (the copy the fourth gather reads). -/
theorem bond2_apply' (P : Fin 2000000) : val_main_v77 (F := Ideal) x1 (ix1 P) = Interp.wrapW 10#32 (x1 (ix1 P)) := by
  rw [val_main_v77_apply, val_main_v74_apply, val_main_v73_apply, val_main_c_21_apply, val_main_v76_apply, val_main_v75_apply,
    val_main_c_22_apply]
  rfl

/-- The cell as a table coordinate. -/
theorem cellwrap2_apply (P : Fin 2000000) :
    val_main_v66 (F := Ideal) x0 (ix1 P) = Interp.wrapW 512#32 (Interp.cellW (Interp.posDiv (x0 (ix1 P)))) := by
  rw [val_main_v66_apply, val_main_v63_apply, val_main_v62_apply, val_main_c_18_apply, val_main_v65_apply, val_main_v64_apply,
    val_main_c_19_apply, cell2_apply]
  rfl

/-- The next grid point as a table coordinate. -/
theorem cellwrap21_apply (P : Fin 2000000) :
    val_main_v82 (F := Ideal) x0 (ix1 P) = Interp.wrapW 512#32 (IntOp.addi (Interp.cellW (Interp.posDiv (x0 (ix1 P)))) 1#32) := by
  rw [val_main_v82_apply, val_main_v79_apply, val_main_v78_apply, val_main_c_23_apply, val_main_v81_apply, val_main_v80_apply,
    val_main_c_24_apply, val_main_v72_apply, val_main_v71_apply, val_main_c_20_apply, cell2_apply]
  rfl

theorem idx56 (P : Fin 2000000) (z : Fin 1) : idx_main_v56 (ix2 P z) = ix1 P := funext fun a => by match a with | ⟨0, _⟩ => rfl
theorem idx67 (P : Fin 2000000) (z : Fin 1) : idx_main_v67 (ix2 P z) = ix1 P := funext fun a => by match a with | ⟨0, _⟩ => rfl
theorem idx68 (P : Fin 2000000) (z : Fin 1) : idx_main_v68 (ix2 P z) = ix1 P := funext fun a => by match a with | ⟨0, _⟩ => rfl
theorem idx83 (P : Fin 2000000) (z : Fin 1) : idx_main_v83 (ix2 P z) = ix1 P := funext fun a => by match a with | ⟨0, _⟩ => rfl
theorem idx84 (P : Fin 2000000) (z : Fin 1) : idx_main_v84 (ix2 P z) = ix1 P := funext fun a => by match a with | ⟨0, _⟩ => rfl
theorem idx89 (P : Fin 2000000) (q : Fin 16) : idx_main_v89 (ix2 P q) = ix2 P 0 :=
  funext fun a => by match a with | ⟨0, _⟩ => rfl | ⟨1, _⟩ => rfl
theorem idx91 (P : Fin 2000000) (q : Fin 16) : idx_main_v91 (ix2 P q) = ix2 P 0 :=
  funext fun a => by match a with | ⟨0, _⟩ => rfl | ⟨1, _⟩ => rfl

/-- One element of the second result. -/
theorem over_val (x4 : (⟨S10x16x512, .f32⟩ : BufTy).Contents (Elt Ideal)) (P : Fin 2000000) (q : Fin 16) :
    val_main_v93 (F := Ideal) x0 x1 x4 (ix2 P q) = Interp.edgeR (x0 (ix1 P)) (x1 (ix1 P)) x4 q := by
  rw [val_main_v93_apply, val_main_v90_apply, val_main_v92_apply, val_main_v89_apply, val_main_v91_apply, idx89, idx91,
    val_main_v88_apply, val_main_v87_apply, val_main_cst_25_apply, val_main_v56_apply, idx56, frac2_apply]
  unfold val_main_v70 val_main_v86 val_main_v69 val_main_v85
  rw [gather3_at x4 _ _ P q (Interp.bondRefFin (x1 (ix1 P))) (Interp.cellRefFin (Interp.posDiv (x0 (ix1 P))))
        (by rw [val_main_v67_apply, idx67, bond2_apply]; rfl) (by rw [val_main_v68_apply, idx68, cellwrap2_apply]; rfl),
      gather3_at x4 _ _ P q (Interp.bondRefFin (x1 (ix1 P))) (Interp.cellRefFin1 (Interp.posDiv (x0 (ix1 P))))
        (by rw [val_main_v83_apply, idx83, bond2_apply']; rfl) (by rw [val_main_v84_apply, idx84, cellwrap21_apply]; rfl)]
  rfl

end second

/-! ## The onsite rows -/

/-- An atom type, read from the end when negative. -/
theorem row_apply (a2 : (⟨S500000, .i32⟩ : BufTy).Contents (Elt Ideal)) (P : Fin 500000) :
    val_main_v98 (F := Ideal) a2 (ix1 P) = Interp.wrapW 4#32 (a2 (ix1 P)) := by
  rw [val_main_v98_apply, val_main_v95_apply, val_main_v94_apply, val_main_c_26_apply, val_main_v97_apply, val_main_v96_apply,
    val_main_c_27_apply]
  rfl

theorem idx99 (P : Fin 500000) (z : Fin 1) : idx_main_v99 (ix2 P z) = ix1 P := funext fun a => by match a with | ⟨0, _⟩ => rfl

/-- One element of the third result: the onsite table's row of the atom's type. -/
theorem node_apply (a5 : FVec Ideal S4x4 .f32) (a2 : IVec S500000 32) (P : Fin 500000) (q : Fin 4) :
    Host.gather gather_S4x4_S500000x1_S500000x4_1_0_n_n_0_1_14 a5
        (broadcastInDim S500000x1 ![0] bcast_S500000_S500000x1_0
          (select (cmpi .slt a2 (broadcastInDim S500000 ![] bcast_S_S500000 (constantI S_ 32 0#32)))
            (addi a2 (broadcastInDim S500000 ![] bcast_S_S500000 (constantI S_ 32 4#32))) a2)) (ix2 P q)
      = a5 (ix2 (Interp.rowRefFin (a2 (ix1 P))) q) := by
  refine (congrFun (val_main_v100_eq (F := Ideal) a2 a5) (ix2 P q)).trans ?_
  unfold val_main_v100
  exact gather2_at a5 _ P q (Interp.rowRefFin (a2 (ix1 P))) (by rw [val_main_v99_apply, idx99, row_apply]; rfl)

/-! ## The three results as the run states them -/

section run
variable (m : (ℓ : Loc nD τ sig) → Buf (Elt Ideal) ℓ) (c : Dev nD)

/-- One element of the first result, of the arguments' launch contents. -/
theorem feat_apply (P : Fin 2000000) (q : Fin 16) :
    ValueP.res_main_v46 (F := Ideal) m c (ix2 P q)
      = Interp.edgeR (m ((c.tc : Thread nD τ).loc main_arg0) (ix1 P)) (m ((c.tc : Thread nD τ).loc main_arg1) (ix1 P))
          (m ((c.tc : Thread nD τ).loc main_arg3)) q := by
  rw [val_main_v46_eq]
  exact feat_val _ _ _ P q

/-- One element of the second result. -/
theorem over_apply (P : Fin 2000000) (q : Fin 16) :
    ValueP.res_main_v93 (F := Ideal) m c (ix2 P q)
      = Interp.edgeR (m ((c.tc : Thread nD τ).loc main_arg0) (ix1 P)) (m ((c.tc : Thread nD τ).loc main_arg1) (ix1 P))
          (m ((c.tc : Thread nD τ).loc main_arg4)) q := by
  rw [val_main_v93_eq]
  exact over_val _ _ _ P q

end run

end Cert.ReferenceIdeal.RefValue

end
-- ==== Proof.RefNode.lean ====
/-
  The second program's third result, one element at a time and whole.

  Each atom has a type; the result's row for an atom is the row of the `4 × 4` onsite table at that type. The program
  first reads a negative type from the end (`a + 4` below zero, else `a`), gives the vector of types a second axis of
  extent one, and gathers with it: the gather keeps the index inside `[0, 3]`. So the element at `(P, q)` is the table
  at `(min (wrapped type of atom P) 3, q)`; where no type is negative the wrap does nothing and the whole result is the
  array of onsite rows by atom type.
-/
import proofs.«402313_j9783935500642_3_alg».proof.Proof.GatherRead
import proofs.«402313_j9783935500642_3_alg».proof.Proof.Spec
import proofs.«402313_j9783935500642_3_alg».proof.Proof.Results
import Idealize.ShloMosaic.Lib.ValueIdx
import Idealize.ShloMosaic.Lib.Pipeline.Value

noncomputable section

namespace Cert.ReferenceIdeal.RefNode

open Idealize.ShloMosaic Idealize.ShloMosaic.ValueIdx
open Cert.ReferenceIdeal Cert.ReferenceIdeal.GatherRead

variable [Facts]
open Facts₀ Facts

/-- The column of start indices read at `(P, 0)`: the atom's type, read from the end when negative. The column is the
    wrapped vector of types given a second axis of extent one, and the wrapped vector is computed element by element. -/
theorem startIdx_apply (a2 : IVec S500000 32) (P : Fin 500000) :
    broadcastInDim S500000x1 ![0] bcast_S500000_S500000x1_0 (select (cmpi .slt a2 (broadcastInDim S500000 ![] bcast_S_S500000 (constantI S_ 32 0#32))) (addi a2 (broadcastInDim S500000 ![] bcast_S_S500000 (constantI S_ 32 4#32))) a2) (ix2 P 0)
      = Interp.wrapW 4#32 (a2 (ix1 P)) := by
  refine (broadcastInDim_apply _ _ _ (ix2 P 0) (ix1 P) ?_).trans ?_
  · intro a
    match a with
    | ⟨0, _⟩ => rfl
  · rfl

/-- THE THIRD RESULT AT `(P, q)`: the onsite table's row at the atom's type (read from the end when negative, then kept
    inside the axis), column `q`. -/
theorem node_apply (a5 : FVec Ideal S4x4 .f32) (a2 : IVec S500000 32) (P : Fin 500000) (q : Fin 4) :
    Host.gather gather_S4x4_S500000x1_S500000x4_1_0_n_n_0_1_14 a5 (broadcastInDim S500000x1 ![0] bcast_S500000_S500000x1_0 (select (cmpi .slt a2 (broadcastInDim S500000 ![] bcast_S_S500000 (constantI S_ 32 0#32))) (addi a2 (broadcastInDim S500000 ![] bcast_S_S500000 (constantI S_ 32 4#32))) a2)) (ix2 P q)
      = a5 (ix2 (Interp.rowRefFin (a2 (ix1 P))) q) := by
  refine (gather2_apply a5 _ P q).trans ?_
  refine congrArg a5 ?_
  funext b
  refine Fin.ext ?_
  match b with
  | ⟨0, _⟩ =>
    show min (BitVec.toInt _).toNat 3 = min (Interp.wrapW 4#32 (a2 (ix1 P))).toInt.toNat 3
    rw [startIdx_apply]
  | ⟨1, _⟩ => rfl

/-- THE THIRD RESULT, WHOLE: where no atom type is negative it is the array of onsite rows by atom type. -/
theorem node_value (a5 : FVec Ideal S4x4 .f32) (a2 : IVec S500000 32) (hat : ∀ i, 0 ≤ (a2 i).toInt) :
    Host.gather gather_S4x4_S500000x1_S500000x4_1_0_n_n_0_1_14 a5 (broadcastInDim S500000x1 ![0] bcast_S500000_S500000x1_0 (select (cmpi .slt a2 (broadcastInDim S500000 ![] bcast_S_S500000 (constantI S_ 32 0#32))) (addi a2 (broadcastInDim S500000 ![] bcast_S_S500000 (constantI S_ 32 4#32))) a2)) = Interp.nodeArr a2 a5 := by
  funext j
  obtain ⟨P, q, rfl⟩ : ∃ (P : Fin 500000) (q : Fin 4), j = ix2 P q := ⟨j 0, j 1, eq_ix2 j⟩
  rw [node_apply, Interp.rowRefFin_eq _ (hat _)]
  rfl

end Cert.ReferenceIdeal.RefNode
-- ==== Proof.PreDecode.lean ====
/-
  The precondition `finite_inputs`, read back at the extended reals.

  The printed predicate is a conjunction of seven `jnp.all`s: for each of the four float arguments, |x| < +inf at
  every entry (+inf being the f32 word 0x7F800000); edge_type ≥ 0; atom_type ≥ 0; atom_type < 4. Each `jnp.all` is a
  reduction by `and` over every axis, from the constant 1, into a result of one index; the seven results are joined by `and`.

  If the whole predicate is 1 then each conjunct is 1 (`and` of two bits is 1 only when both are), so each reduction
  met only 1s, so each comparison holds at every index. At the extended reals |x| is max x (-x), which is +inf at both
  infinities; so |x| < +inf leaves exactly the reals. The signed comparisons against the constants 0 and 4 say what
  they say of the signed values of the words.
-/
import proofs.«402313_j9783935500642_3_alg».proof.Pre_finite_inputs
import Idealize.ShloMosaic.Lib.ReduceAll
import Idealize.ShloMosaic.Lib.Affine
import Idealize.ShloMosaic.PureOps.Ideal
import Idealize.ShloMosaic.Lib.ValueIdx

namespace Cert.Pre_finite_inputs.Decode

open Idealize.ShloMosaic

/-- The rank-0 shape has one index: the empty tuple. -/
instance : Subsingleton S_.Idx := ⟨fun a b => funext fun d => d.elim0⟩

/-- An extended real whose absolute value max x (-x) lies strictly below +inf is a real: at ⊥ and at ⊤ the absolute
    value is ⊤, which is not below itself. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  -- the word 0x7F800000 (exponent all ones, fraction zero, sign clear) denotes +inf
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The precondition holding says: every entry of the four float arguments is a real, every edge type is
    non-negative, and every atom type lies in [0, 4). -/
theorem decode [Facts] (a0 : FVec Ideal S2000000 .f32) (a1 : IVec S2000000 32) (a2 : IVec S500000 32)
    (a3 a4 : FVec Ideal S10x16x512 .f32) (a5 : FVec Ideal S4x4 .f32)
    (h : fn (F := Ideal) a0 a1 a2 a3 a4 a5 = fun _ => 1#1) :
    (∀ i, ∃ x : ℝ, a0 i = (x : EReal)) ∧ (∀ i, ∃ x : ℝ, a3 i = (x : EReal)) ∧ (∀ i, ∃ x : ℝ, a4 i = (x : EReal))
    ∧ (∀ i, ∃ x : ℝ, a5 i = (x : EReal))
    ∧ (∀ i, 0 ≤ (a1 i).toInt) ∧ (∀ i, 0 ≤ (a2 i).toInt) ∧ (∀ i, (a2 i).toInt < 4) := by
  -- the predicate's one bit, as the chain of operations that computes it
  have h0 := congrFun h ValueIdx.ix0
  dsimp only [fn, fn_part1] at h0
  -- the conjunction is nested to the left: peel the last conjunct off, six times
  obtain ⟨h0, hlt⟩ := IntOp.andi_eq_one.1 h0
  obtain ⟨h0, hge2⟩ := IntOp.andi_eq_one.1 h0
  obtain ⟨h0, hge1⟩ := IntOp.andi_eq_one.1 h0
  obtain ⟨h0, hf5⟩ := IntOp.andi_eq_one.1 h0
  obtain ⟨h0, hf4⟩ := IntOp.andi_eq_one.1 h0
  obtain ⟨hf0, hf3⟩ := IntOp.andi_eq_one.1 h0
  refine ⟨fun i => ?_, fun i => ?_, fun i => ?_, fun i => ?_, fun i => ?_, fun i => ?_, fun i => ?_⟩
  -- the four float arguments: |x| < +inf at index i
  · have e := Host.reduce_andi_all _ _ _ _ _ hf0 i
    exact real_of_abs_lt_top (a0 i) e
  · have e := Host.reduce_andi_all _ _ _ _ _ hf3 i
    exact real_of_abs_lt_top (a3 i) e
  · have e := Host.reduce_andi_all _ _ _ _ _ hf4 i
    exact real_of_abs_lt_top (a4 i) e
  · have e := Host.reduce_andi_all _ _ _ _ _ hf5 i
    exact real_of_abs_lt_top (a5 i) e
  -- edge_type ≥ 0: the signed value of the word 0 is 0
  · have e := Host.reduce_andi_all _ _ _ _ _ hge1 i
    have e' : (0#32 : BitVec 32).toInt ≤ (a1 i).toInt := IntOp.cmpi_sge.1 e
    simpa using e'
  -- atom_type ≥ 0
  · have e := Host.reduce_andi_all _ _ _ _ _ hge2 i
    have e' : (0#32 : BitVec 32).toInt ≤ (a2 i).toInt := IntOp.cmpi_sge.1 e
    simpa using e'
  -- atom_type < 4: the signed value of the word 4 is 4
  · have e := Host.reduce_andi_all _ _ _ _ _ hlt i
    have e' : (a2 i).toInt < (4#32 : BitVec 32).toInt := IntOp.cmpi_slt.1 e
    have h4 : (4#32 : BitVec 32).toInt = 4 := by decide
    rwa [h4] at e'

end Cert.Pre_finite_inputs.Decode
-- ==== Proof.Claims.lean ====
/-
  The five claims.

  The first program interpolates two tables at every edge's distance and looks up a row of a small table at every
  atom, in two kernels over blocks of edges and of atoms; the second does the same with array indexing. On the extended
  reals, for finite float inputs, bond types that are not negative and atom types inside [0, 3], the three results are
  the same arrays: `Interp.edgeArr` of the distances, the bond types and each table, and `Interp.nodeArr` of the atom
  types and the onsite table. The frames of the two kernel programs are the generated ones; the second program's frame
  is its run with the results dropped.
-/
import proofs.«402313_j9783935500642_3_alg».proof.Defs
import proofs.«402313_j9783935500642_3_alg».proof.Proof.Gen.Kernel.Frame
import proofs.«402313_j9783935500642_3_alg».proof.Proof.Gen.KernelIdeal.Frame
import proofs.«402313_j9783935500642_3_alg».proof.Proof.Gen.ReferenceIdeal
import proofs.«402313_j9783935500642_3_alg».proof.Proof.RefRun
import proofs.«402313_j9783935500642_3_alg».proof.Proof.Gen.Pre_finite_inputs
import proofs.«402313_j9783935500642_3_alg».proof.Proof.KernelRun
import proofs.«402313_j9783935500642_3_alg».proof.Proof.KernelValue
import proofs.«402313_j9783935500642_3_alg».proof.Proof.RefValue
import proofs.«402313_j9783935500642_3_alg».proof.Proof.RefNode
import proofs.«402313_j9783935500642_3_alg».proof.Proof.PreDecode
import proofs.«402313_j9783935500642_3_alg».proof.Proof.Spec
import proofs.«402313_j9783935500642_3_alg».proof.Proof.Results

set_option maxRecDepth 16384

noncomputable section

open Idealize.ShloMosaic Idealize.ShloMosaic.TcCoe Idealize.SL.Sem Idealize.ShloMosaic.ValueIdx

namespace Cert.Proof.Claims

/-- The three programs run, nothing faults, the arguments end as launched. -/
theorem frame_k : Cert.frame_Kernel := fun m ρ _ => Cert.Kernel.Gen.frame m ρ
theorem frame_ki : Cert.frame_KernelIdeal := fun m ρ _ => Cert.KernelIdeal.Gen.frame m ρ

/-- The one rewrite of the idealization: the scale of the position is named the reciprocal of the grid spacing, and the
    printed constant is that value on the extended reals. -/
theorem preserves : Cert.preserves_Kernel_KernelIdeal :=
  IdealRules.named_const.statement Cert.KernelIdeal.κ "inv_dx" .f32 0x42631C72#32 ((134217728 / 2363913 : ℝ) : EReal) rfl

open Cert.KernelIdeal in
/-- The first program, run from a memory on which the precondition holds: every weakly fair execution ends with the three
    result arrays at the interpolated tables and the onsite rows of the ARGUMENTS, and the arguments as launched. The run
    names each result at the last boundary's contents; those are the arrays of the arguments once the precondition is
    decoded (finite tables; atom types inside [0, 3]). -/
theorem kernel_half (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread nD τ).loc main_v14) = Interp.edgeArr (m ((c.tc : Thread nD τ).loc main_arg0)) (m ((c.tc : Thread nD τ).loc main_arg1)) (m ((c.tc : Thread nD τ).loc main_arg3))
          ∧ r.2.mem ((c.tc : Thread nD τ).loc main_v15) = Interp.edgeArr (m ((c.tc : Thread nD τ).loc main_arg0)) (m ((c.tc : Thread nD τ).loc main_arg1)) (m ((c.tc : Thread nD τ).loc main_arg4))
          ∧ r.2.mem ((c.tc : Thread nD τ).loc main_v17) = Interp.nodeArr (m ((c.tc : Thread nD τ).loc main_arg2)) (m ((c.tc : Thread nD τ).loc main_arg5))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)) := by
  refine (θ_run _ _ _).mono (fun r h c => ?_) (Cert.KernelIdeal.RunValue.run_results (F := Ideal) m ρ)
  obtain ⟨d0, d3, d4, d5, de, da0, da4⟩ := Cert.Pre_finite_inputs.Decode.decode _ _ _ _ _ _ (hpre c)
  obtain ⟨h14, h15, h17, hargs⟩ := h c
  exact ⟨h14.trans (Cert.KernelIdeal.KernelValue.feat_value m ρ c d3 d4), h15.trans (Cert.KernelIdeal.KernelValue.over_value m ρ c d3 d4),
    h17.trans (Cert.KernelIdeal.KernelValue.node_value m ρ c (fun i => ⟨da0 i, da4 i⟩)), hargs⟩

theorem frame_ri : Cert.frame_ReferenceIdeal := fun m ρ _ =>
  (θ_run Cert.ReferenceIdeal.defs _ _).mono (fun _ h c => (h c).2.2.2) (Cert.ReferenceIdeal.ValueP.run (F := Ideal) m ρ)

open Cert.ReferenceIdeal in
/-- The second program, run from a memory that agrees with the first's on the arguments: its three results are the same
    three arrays. Its run gives each result as the composed term of its operations; read at an index that is the second
    spelling of the interpolation, which on a finite distance, a bond type that is not negative and finite tables is the
    first's; an atom type that is not negative is read alike by both. -/
theorem ref_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hpre : Cert.Pre_KernelIdeal m)
    (hagree : ∀ c : Dev Cert.KernelIdeal.nD,
      m' ((c.tc : Thread nD τ).loc main_arg0) = m ((c.tc : Thread Cert.KernelIdeal.nD Cert.KernelIdeal.τ).loc Cert.KernelIdeal.main_arg0)
      ∧ m' ((c.tc : Thread nD τ).loc main_arg1) = m ((c.tc : Thread Cert.KernelIdeal.nD Cert.KernelIdeal.τ).loc Cert.KernelIdeal.main_arg1)
      ∧ m' ((c.tc : Thread nD τ).loc main_arg2) = m ((c.tc : Thread Cert.KernelIdeal.nD Cert.KernelIdeal.τ).loc Cert.KernelIdeal.main_arg2)
      ∧ m' ((c.tc : Thread nD τ).loc main_arg3) = m ((c.tc : Thread Cert.KernelIdeal.nD Cert.KernelIdeal.τ).loc Cert.KernelIdeal.main_arg3)
      ∧ m' ((c.tc : Thread nD τ).loc main_arg4) = m ((c.tc : Thread Cert.KernelIdeal.nD Cert.KernelIdeal.τ).loc Cert.KernelIdeal.main_arg4)
      ∧ m' ((c.tc : Thread nD τ).loc main_arg5) = m ((c.tc : Thread Cert.KernelIdeal.nD Cert.KernelIdeal.τ).loc Cert.KernelIdeal.main_arg5)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread nD τ).loc main_v46) = Interp.edgeArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
          ∧ r.2.mem ((c.tc : Thread nD τ).loc main_v93) = Interp.edgeArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4))
          ∧ r.2.mem ((c.tc : Thread nD τ).loc main_v100) = Interp.nodeArr (m ((c.tc : Thread Cert.KernelIdeal.nD Cert.KernelIdeal.τ).loc Cert.KernelIdeal.main_arg2)) (m ((c.tc : Thread Cert.KernelIdeal.nD Cert.KernelIdeal.τ).loc Cert.KernelIdeal.main_arg5))
          ∧ r.2.mem ((c.tc : Thread nD τ).loc main_arg0) = m' ((c.tc : Thread nD τ).loc main_arg0)
          ∧ r.2.mem ((c.tc : Thread nD τ).loc main_arg1) = m' ((c.tc : Thread nD τ).loc main_arg1)
          ∧ r.2.mem ((c.tc : Thread nD τ).loc main_arg2) = m' ((c.tc : Thread nD τ).loc main_arg2)
          ∧ r.2.mem ((c.tc : Thread nD τ).loc main_arg3) = m' ((c.tc : Thread nD τ).loc main_arg3)
          ∧ r.2.mem ((c.tc : Thread nD τ).loc main_arg4) = m' ((c.tc : Thread nD τ).loc main_arg4)
          ∧ r.2.mem ((c.tc : Thread nD τ).loc main_arg5) = m' ((c.tc : Thread nD τ).loc main_arg5)) := by
  refine (θ_run _ _ _).mono (fun r h c => ?_) (Cert.ReferenceIdeal.ValueP.run (F := Ideal) m' ρ')
  obtain ⟨d0, d3, d4, d5, de, da0, da4⟩ := Cert.Pre_finite_inputs.Decode.decode _ _ _ _ _ _ (hpre c)
  obtain ⟨e0, e1, e2, e3, e4, e5⟩ := hagree c
  obtain ⟨g46, g93, g100, hargs⟩ := h c
  refine ⟨g46.trans ?_, g93.trans ?_, g100.trans ?_, hargs⟩
  · funext j
    obtain ⟨P, q, rfl⟩ : ∃ (P : Fin 2000000) (q : Fin 16), j = ix2 P q := ⟨j 0, j 1, eq_ix2 j⟩
    rw [Cert.ReferenceIdeal.RefValue.feat_apply, e0, e1, e3]
    exact Interp.edgeR_eq _ _ _ _ (d0 _) (de _) d3
  · funext j
    obtain ⟨P, q, rfl⟩ : ∃ (P : Fin 2000000) (q : Fin 16), j = ix2 P q := ⟨j 0, j 1, eq_ix2 j⟩
    rw [Cert.ReferenceIdeal.RefValue.over_apply, e0, e1, e4]
    exact Interp.edgeR_eq _ _ _ _ (d0 _) (de _) d4
  · rw [e2, e5]
    exact Cert.ReferenceIdeal.RefNode.node_value _ _ da0

/-- Both programs end at the same three arrays. -/
theorem algebraic : Cert.algebraic_KernelIdeal_ReferenceIdeal :=
  fun m ρ m' ρ' hpre hagree => ⟨_, _, _, kernel_half m ρ hpre, ref_half m m' ρ' hpre hagree⟩

end Cert.Proof.Claims
end
-- ==== Proof.lean ====
/-
  Two programs tabulate the same physics: for every edge of a graph the sixteen hopping integrals and the sixteen
  overlap integrals of its bond type, interpolated linearly in the edge's length on a uniform grid of 512 points, and
  for every atom the four onsite energies of its type. The first program is a pair of blocked kernels that replace
  every table look-up by products with 0/1 vectors; the second indexes the tables. Read on the extended reals, under
  the precondition (finite float inputs, bond types that are not negative, atom types inside [0, 3]), they end at the
  same three arrays. The statement is in Defs.lean; the claims are proved in Proof/Claims.lean over:
  Proof/Spec.lean and Proof/Results.lean (the interpolation in both spellings, one element and whole arrays),
  Proof/EdgeLerp.lean, Proof/EdgeSelect.lean, Proof/EdgeBody.lean, Proof/EdgeArr.lean (the edge kernel: its body at
  one element, then the arrays its blocks fill), Proof/NodeValue.lean (the node kernel likewise), Proof/CatDef.lean and
  Proof/CatTable.lean (the table operand), Proof/PadSlice.lean, Proof/HostFold.lean, Proof/KernelRun.lean and
  Proof/KernelValue.lean (the first program's run and its results as functions of the arguments), Proof/GatherRead.lean,
  Proof/RefRun.lean, Proof/RefRead.lean, Proof/RefValue.lean, Proof/RefNode.lean (the second program's run and results), Proof/PreDecode.lean (the precondition).
-/
import proofs.«402313_j9783935500642_3_alg».proof.Defs
import proofs.«402313_j9783935500642_3_alg».proof.Proof.Gen.Kernel
import proofs.«402313_j9783935500642_3_alg».proof.Proof.Gen.Kernel.Skeleton
import proofs.«402313_j9783935500642_3_alg».proof.Proof.Gen.Kernel.Launch
import proofs.«402313_j9783935500642_3_alg».proof.Proof.Gen.Kernel.Points
import proofs.«402313_j9783935500642_3_alg».proof.Proof.Gen.Kernel.Frame
import proofs.«402313_j9783935500642_3_alg».proof.Proof.Gen.KernelIdeal
import proofs.«402313_j9783935500642_3_alg».proof.Proof.Gen.KernelIdeal.Skeleton
import proofs.«402313_j9783935500642_3_alg».proof.Proof.Gen.KernelIdeal.Launch
import proofs.«402313_j9783935500642_3_alg».proof.Proof.Gen.KernelIdeal.Points
import proofs.«402313_j9783935500642_3_alg».proof.Proof.Gen.KernelIdeal.Frame
import proofs.«402313_j9783935500642_3_alg».proof.Proof.Gen.ReferenceIdeal
import proofs.«402313_j9783935500642_3_alg».proof.Proof.Gen.Pre_finite_inputs
import proofs.«402313_j9783935500642_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
